-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S16x512 : Shape := ⟨2, ![16, 512]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x4096x256 .f32) (main_arg1 : FVec F S16x4096x256 .f32) (main_arg2 : IVec S16x512 32) (main_arg3 : IVec S16x512 32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  let main_c_2 : IVec S_ 32 := constantI S_ 32 4096#32
  let main_v9 : IVec S16x512 32 := broadcastInDim S16x512 ![] bcast_S_S16x512 main_c_2
  let main_v10 : IVec S16x512 1 := cmpi .slt main_arg2 main_v9
  let main_c_3 : IVec S_ 1 := constantI S_ 1 1#1
  let main_v11 : IVec S_ 1 := (fun x v => Host.reduce IntOp.andi x v reducesTo_S16x512_S_d0_1 h_S_) main_v10 main_c_3
  let main_v12 : IVec S_ 1 := andi main_v8 main_v11
  let main_c_4 : IVec S_ 32 := constantI S_ 32 4096#32
  let main_v13 : IVec S16x512 32 := broadcastInDim S16x512 ![] bcast_S_S16x512 main_c_4
  let main_v14 : IVec S16x512 1 := cmpi .slt main_arg3 main_v13
  let main_c_5 : IVec S_ 1 := constantI S_ 1 1#1
  let main_v15 : IVec S_ 1 := (fun x v => Host.reduce IntOp.andi x v reducesTo_S16x512_S_d0_1 h_S_) main_v14 main_c_5
  fn_part1 (F := F) main_v12 main_v15
-- ==== Kernel.lean ====
abbrev S16x4096x256 : Shape := ⟨3, ![16, 4096, 256]⟩
abbrev S16x512 : Shape := ⟨2, ![16, 512]⟩
abbrev S_ : Shape := ⟨0, ![]⟩
abbrev S16x4096x1x256 : Shape := ⟨4, ![16, 4096, 1, 256]⟩
abbrev S16x512x1x512 : Shape := ⟨4, ![16, 512, 1, 512]⟩
abbrev S1x1x1x256 : Shape := ⟨4, ![1, 1, 1, 256]⟩
abbrev S1x1 : Shape := ⟨2, ![1, 1]⟩
abbrev S1x1x1x512 : Shape := ⟨4, ![1, 1, 1, 512]⟩
abbrev S16x512x512 : Shape := ⟨3, ![16, 512, 512]⟩

abbrev nBuf : Space → Nat
  | .hbm => 16
  | .vmem => 6
  | .smem => 2
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x512, .i32⟩
  | .hbm, ⟨3, _⟩ => ⟨S16x512, .i32⟩
  | .hbm, ⟨4, _⟩ => ⟨S_, .i32⟩
  | .hbm, ⟨5, _⟩ => ⟨S16x512, .i32⟩
  | .hbm, ⟨6, _⟩ => ⟨S16x512, .i1⟩
  | .hbm, ⟨7, _⟩ => ⟨S16x512, .i32⟩
  | .hbm, ⟨8, _⟩ => ⟨S_, .i32⟩
  | .hbm, ⟨9, _⟩ => ⟨S16x512, .i32⟩
  | .hbm, ⟨10, _⟩ => ⟨S16x512, .i1⟩
  | .hbm, ⟨11, _⟩ => ⟨S16x512, .i32⟩
  | .hbm, ⟨12, _⟩ => ⟨S16x4096x1x256, .f32⟩
  | .hbm, ⟨13, _⟩ => ⟨S16x4096x1x256, .f32⟩
  | .hbm, ⟨14, _⟩ => ⟨S16x512x1x512, .f32⟩
  | .hbm, ⟨15, _⟩ => ⟨S16x512x512, .f32⟩
  | .local _ .vmem, ⟨0, _⟩ => ⟨S1x1x1x256, .f32⟩
  | .local _ .vmem, ⟨1, _⟩ => ⟨S1x1x1x256, .f32⟩
  | .local _ .vmem, ⟨2, _⟩ => ⟨S1x1x1x256, .f32⟩
  | .local _ .vmem, ⟨3, _⟩ => ⟨S1x1x1x256, .f32⟩
  | .local _ .vmem, ⟨4, _⟩ => ⟨S1x1x1x512, .f32⟩
  | .local _ .vmem, ⟨5, _⟩ => ⟨S1x1x1x512, .f32⟩
  | .local _ .smem, ⟨0, _⟩ => ⟨S16x512, .i32⟩
  | .local _ .smem, ⟨1, _⟩ => ⟨S16x512, .i32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v3 : Ref sig .tc := ⟨.smem, 0, rfl⟩
abbrev main_v7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 512], ![false, false]⟩

abbrev pre0 : Pipeline.Prefetch sig := ⟨2, ![main_v3.idx, main_v7.idx], fun | 0 => main_v3.names | 1 => main_v7.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def cc0_transform_0 (k0_off1_inb : ∀ i : grid0.Coords, ∀ a, (k0_off1 i) a + S1x1.size a ≤ S16x512.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S16x512) ![v0.toNat, v1.toNat] S1x1.size (k0_off1_inb i)) numel1_S1x1
  let c0_i32 : BitVec 32 := 0#32
  let c0_i32_0 : BitVec 32 := 0#32
  let c0_i32_1 : BitVec 32 := 0#32
  ![arg0.toNat, v2.toNat, c0_i32.toNat, c0_i32_0.toNat]

def cc0_transform_1 (k0_off1_inb : ∀ i : grid0.Coords, ∀ a, (k0_off1 i) a + S1x1.size a ≤ S16x512.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S16x512) ![v0.toNat, v1.toNat] S1x1.size (k0_off1_inb i)) numel1_S1x1
  let c0_i32 : BitVec 32 := 0#32
  let c0_i32_0 : BitVec 32 := 0#32
  let c0_i32_1 : BitVec 32 := 0#32
  ![arg0.toNat, v2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S16x512 : S_.BroadcastsInDim S16x512 (![] : Fin 0 → Fin S16x512.rank)
  natLt_1_32 : 1 < 32
  shapeCasts_S16x4096x256_S16x4096x1x256 : S16x4096x256.ShapeCasts S16x4096x1x256
  numel1_S1x1 : S1x1.numel = 1
  inb_S1x1x1x256_S1x1x1x256_0_0_0_0 : ∀ a, (![0, 0, 0, 0] : Fin 4 → Nat) a + S1x1x1x256.size a ≤ S1x1x1x256.size a
  h_S1x1x1x256 : 0 < S1x1x1x256.numel
  shapeCasts_S1x1x1x256_S1x1x1x256 : S1x1x1x256.ShapeCasts S1x1x1x256
  inb_S1x1x1x512_S1x1x1x256_0_0_0_0 : ∀ a, (![0, 0, 0, 0] : Fin 4 → Nat) a + S1x1x1x256.size a ≤ S1x1x1x512.size a
  inb_S1x1x1x512_S1x1x1x256_0_0_0_256 : ∀ a, (![0, 0, 0, 256] : Fin 4 → Nat) a + S1x1x1x256.size a ≤ S1x1x1x512.size a
  shapeCasts_S16x512x1x512_S16x512x512 : S16x512x1x512.ShapeCasts S16x512x512
  hrank0 : 0 < grid0.rank
  k0_off1_inb : ∀ i : grid0.Coords, ∀ a, (k0_off1 i) a + S1x1.size a ≤ S16x512.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1x1 pf i = cc0_transform_0 k0_off1_inb numel1_S1x1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1x1 pf i = cc0_transform_1 k0_off1_inb numel1_S1x1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x512.size a ≤ S16x512x1x512.size a
  hwx0_2 : ∀ i : grid0.Coords, EltTy.bits .f32 = 32 ∨ (Rect.block (s := S16x512x1x512) S1x1x1x512.size (cc0_transform_2 i) (hinb0_2 i)).WholeWords (EltTy.packing .f32)

variable [Facts₀]

abbrev spec0_0 : Pipeline.WinSpec sig grid0.rank :=
  Pipeline.WinSpec.ofSpec (Memref.whole main_v8) S1x1x1x256.size reads0_0 false false 2 stage0_0 sem0_0 nbuf0_0 hstage0_0

abbrev spec0_1 : Pipeline.WinSpec sig grid0.rank :=
  Pipeline.WinSpec.ofSpec (Memref.whole main_v9) S1x1x1x256.size reads0_1 false false 2 stage0_1 sem0_1 nbuf0_1 hstage0_1

abbrev spec0_2 : Pipeline.WinSpec sig grid0.rank :=
  Pipeline.WinSpec.ofSpec (Memref.whole main_v10) S1x1x1x512.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1x1 pf | 1 => cc0_transform_1 k0_off1_inb numel1_S1x1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1x1 pf i a + 1) * S1x1x1x256.size a ≤ S16x4096x1x256.size a), EltTy.bits .f32 = 32 ∨ (Rect.block (s := S16x4096x1x256) S1x1x1x256.size (cc0_transform_0 k0_off1_inb numel1_S1x1 pf i) h).WholeWords (EltTy.packing .f32)) ∧
  (∀ i : grid0.Coords, ∃ h : (∀ a, (cc0_transform_1 k0_off1_inb numel1_S1x1 pf i a + 1) * S1x1x1x256.size a ≤ S16x4096x1x256.size a), EltTy.bits .f32 = 32 ∨ (Rect.block (s := S16x4096x1x256) S1x1x1x256.size (cc0_transform_1 k0_off1_inb numel1_S1x1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16x4096x256 : Shape := ⟨3, ![16, 4096, 256]⟩
abbrev S16x512 : Shape := ⟨2, ![16, 512]⟩
abbrev S_ : Shape := ⟨0, ![]⟩
abbrev S16x512x1 : Shape := ⟨3, ![16, 512, 1]⟩
abbrev S1 : Shape := ⟨1, ![1]⟩
abbrev S1x1x1 : Shape := ⟨3, ![1, 1, 1]⟩
abbrev S16x512x256 : Shape := ⟨3, ![16, 512, 256]⟩
abbrev S16x512x512 : Shape := ⟨3, ![16, 512, 512]⟩

abbrev nBuf : Space → Nat
  | .hbm => 61
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x512, .i32⟩
  | .hbm, ⟨3, _⟩ => ⟨S16x512, .i32⟩
  | .hbm, ⟨4, _⟩ => ⟨S_, .i32⟩
  | .hbm, ⟨5, _⟩ => ⟨S16x512, .i32⟩
  | .hbm, ⟨6, _⟩ => ⟨S16x512, .i1⟩
  | .hbm, ⟨7, _⟩ => ⟨S16x512, .i32⟩
  | .hbm, ⟨8, _⟩ => ⟨S16x512, .i32⟩
  | .hbm, ⟨9, _⟩ => ⟨S_, .i32⟩
  | .hbm, ⟨10, _⟩ => ⟨S16x512, .i32⟩
  | .hbm, ⟨11, _⟩ => ⟨S16x512, .i1⟩
  | .hbm, ⟨12, _⟩ => ⟨S16x512, .i32⟩
  | .hbm, ⟨13, _⟩ => ⟨S16x512, .i32⟩
  | .hbm, ⟨14, _⟩ => ⟨S16x512x1, .i32⟩
  | .hbm, ⟨15, _⟩ => ⟨S_, .i32⟩
  | .hbm, ⟨16, _⟩ => ⟨S16x512x1, .i32⟩
  | .hbm, ⟨17, _⟩ => ⟨S16x512x1, .i1⟩
  | .hbm, ⟨18, _⟩ => ⟨S_, .i32⟩
  | .hbm, ⟨19, _⟩ => ⟨S16x512x1, .i32⟩
  | .hbm, ⟨20, _⟩ => ⟨S16x512x1, .i32⟩
  | .hbm, ⟨21, _⟩ => ⟨S16x512x1, .i32⟩
  | .hbm, ⟨22, _⟩ => ⟨S1, .i32⟩
  | .hbm, ⟨23, _⟩ => ⟨S_, .i32⟩
  | .hbm, ⟨24, _⟩ => ⟨S16x512x1, .i32⟩
  | .hbm, ⟨25, _⟩ => ⟨S16x512x1, .i1⟩
  | .hbm, ⟨26, _⟩ => ⟨S1x1x1, .i32⟩
  | .hbm, ⟨27, _⟩ => ⟨S16x512x1, .i32⟩
  | .hbm, ⟨28, _⟩ => ⟨S16x512x1, .i1⟩
  | .hbm, ⟨29, _⟩ => ⟨S16x512x1, .i1⟩
  | .hbm, ⟨30, _⟩ => ⟨S_, .i1⟩
  | .hbm, ⟨31, _⟩ => ⟨S16x512, .i1⟩
  | .hbm, ⟨32, _⟩ => ⟨S16x512x256, .f32⟩
  | .hbm, ⟨33, _⟩ => ⟨S16x512x256, .i1⟩
  | .hbm, ⟨34, _⟩ => ⟨S_, .f32⟩
  | .hbm, ⟨35, _⟩ => ⟨S16x512x256, .f32⟩
  | .hbm, ⟨36, _⟩ => ⟨S16x512x256, .f32⟩
  | .hbm, ⟨37, _⟩ => ⟨S16x512x1, .i32⟩
  | .hbm, ⟨38, _⟩ => ⟨S_, .i32⟩
  | .hbm, ⟨39, _⟩ => ⟨S16x512x1, .i32⟩
  | .hbm, ⟨40, _⟩ => ⟨S16x512x1, .i1⟩
  | .hbm, ⟨41, _⟩ => ⟨S_, .i32⟩
  | .hbm, ⟨42, _⟩ => ⟨S16x512x1, .i32⟩
  | .hbm, ⟨43, _⟩ => ⟨S16x512x1, .i32⟩
  | .hbm, ⟨44, _⟩ => ⟨S16x512x1, .i32⟩
  | .hbm, ⟨45, _⟩ => ⟨S1, .i32⟩
  | .hbm, ⟨46, _⟩ => ⟨S_, .i32⟩
  | .hbm, ⟨47, _⟩ => ⟨S16x512x1, .i32⟩
  | .hbm, ⟨48, _⟩ => ⟨S16x512x1, .i1⟩
  | .hbm, ⟨49, _⟩ => ⟨S1x1x1, .i32⟩
  | .hbm, ⟨50, _⟩ => ⟨S16x512x1, .i32⟩
  | .hbm, ⟨51, _⟩ => ⟨S16x512x1, .i1⟩
  | .hbm, ⟨52, _⟩ => ⟨S16x512x1, .i1⟩
  | .hbm, ⟨53, _⟩ => ⟨S_, .i1⟩
  | .hbm, ⟨54, _⟩ => ⟨S16x512, .i1⟩
  | .hbm, ⟨55, _⟩ => ⟨S16x512x256, .f32⟩
  | .hbm, ⟨56, _⟩ => ⟨S16x512x256, .i1⟩
  | .hbm, ⟨57, _⟩ => ⟨S_, .f32⟩
  | .hbm, ⟨58, _⟩ => ⟨S16x512x256, .f32⟩
  | .hbm, ⟨59, _⟩ => ⟨S16x512x256, .f32⟩
  | .hbm, ⟨60, _⟩ => ⟨S16x512x512, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_c_2 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v9 : Ref sig .tc := ⟨.hbm, 36, rfl⟩
abbrev main_v10 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_c_2 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_c_3 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v11 : Ref sig .tc := ⟨.hbm, 59, rfl⟩
abbrev main_v12 : Ref sig .tc := ⟨.hbm, 60, rfl⟩

abbrev nD : Nat := 1
abbrev τ : Topo := Topo.v7x

variable {F : FTy → Type} [FloatOps F]

class Facts₀ : Prop where
  bcast_S_S16x512 : S_.BroadcastsInDim S16x512 (![] : Fin 0 → Fin S16x512.rank)
  natLt_1_32 : 1 < 32
  bcast_S16x512_S16x512x1_0_1 : S16x512.BroadcastsInDim S16x512x1 (![0, 1] : Fin 2 → Fin S16x512x1.rank)
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  h_S_ : 0 < S_.numel
  bcast_S16x512_S16x512x256_0_1 : S16x512.BroadcastsInDim S16x512x256 (![0, 1] : Fin 2 → Fin S16x512x256.rank)
  bcast_S_S16x512x256 : S_.BroadcastsInDim S16x512x256 (![] : Fin 0 → Fin S16x512x256.rank)
  concatenates_S16x512x256_S16x512x256_S16x512x512_d2 : Shape.Concatenates [S16x512x256, S16x512x256] S16x512x512 2
  gather_S16x4096x256_S16x512x1_S16x512x256_2_1_0_0_1_2_11256_wf : GatherDims.WF S16x4096x256 S16x512x1 S16x512x256 [2] [1] [0] [1] [0] 2 ![1, 1, 256]

variable [Facts₀]

def gather_S16x4096x256_S16x512x1_S16x512x256_2_1_0_0_1_2_11256 : GatherDims S16x4096x256 S16x512x1 S16x512x256 where
  offsetDims := [2]
  collapsedSliceDims := [1]
  operandBatchingDims := [0]
  startIndicesBatchingDims := [0]
  startIndexMap := [1]
  indexVectorDim := 2
  sliceSizes := ![1, 1, 256]
  wf := gather_S16x4096x256_S16x512x1_S16x512x256_2_1_0_0_1_2_11256_wf

class Facts : Prop extends Facts₀ where

variable [Facts]
-- ==== Proof.PreDecode.lean ====
/-
  What the precondition says of the two index arrays: every word of `idx_fwd` and of `idx_back` is below 4096, read
  signed. (The precondition is the conjunction of four `jnp.all`s; the last two compare each index word with 4096.)
  Stated for any float instance: the index arrays are integers.
-/
import proofs.«409633_j79448305042054_2_alg».proof.Pre_finite_inputs
import Idealize.ShloMosaic.Lib.ReduceAll
import Idealize.ShloMosaic.Lib.ValueIdx

namespace Cert.RowPick

open Idealize.ShloMosaic Idealize.ShloMosaic.ValueIdx

instance : Subsingleton Cert.Pre_finite_inputs.S_.Idx := ⟨fun a b => funext fun d => d.elim0⟩

theorem toInt_4096 : (4096#32 : BitVec 32).toInt = 4096 := by decide

/-- THE PRECONDITION DECODED: every index word is below 4096, signed. -/
theorem idx_lt_of_pre {F : FTy → Type} [FloatOps F] [Cert.Pre_finite_inputs.Facts]
    (a0 a1 : FVec F Cert.Pre_finite_inputs.S16x4096x256 .f32) (i2 i3 : IVec Cert.Pre_finite_inputs.S16x512 32)
    (h : Cert.Pre_finite_inputs.fn (F := F) a0 a1 i2 i3 = fun _ => 1#1) :
    (∀ i, (i2 i).toInt < 4096) ∧ (∀ i, (i3 i).toInt < 4096) := by
  have e := congrFun h ix0
  unfold Cert.Pre_finite_inputs.fn Cert.Pre_finite_inputs.fn_part1 at e
  dsimp only at e
  obtain ⟨h12, h15⟩ := IntOp.andi_eq_one.1 e
  obtain ⟨-, h11⟩ := IntOp.andi_eq_one.1 h12
  refine ⟨fun i => ?_, fun i => ?_⟩
  · have hc := Host.reduce_andi_all _ _ _ _ _ h11 i
    have := IntOp.cmpi_slt.1 hc
    rw [show (broadcastInDim Cert.Pre_finite_inputs.S16x512 ![] Cert.Pre_finite_inputs.Facts.bcast_S_S16x512
      (constantI Cert.Pre_finite_inputs.S_ 32 4096#32) i : BitVec 32) = 4096#32 from rfl, toInt_4096] at this
    exact this
  · have hc := Host.reduce_andi_all _ _ _ _ _ h15 i
    have := IntOp.cmpi_slt.1 hc
    rw [show (broadcastInDim Cert.Pre_finite_inputs.S16x512 ![] Cert.Pre_finite_inputs.Facts.bcast_S_S16x512
      (constantI Cert.Pre_finite_inputs.S_ 32 4096#32) i : BitVec 32) = 4096#32 from rfl, toInt_4096] at this
    exact this

end Cert.RowPick
-- ==== Proof.IndexMask.lean ====
/-
  The masked row index. Both programs replace an index word `a` by `a · [a ≥ 2]`: the word itself where it is at
  least 2 read signed, and 0 otherwise (so every negative word, 0 and 1 name row 0). When `a < 4096` read signed,
  the masked word lies in `[0, 4096)`, signed and unsigned alike: it names a row of a 4096-row table.
-/
import Idealize.ShloMosaic.PureOps
import Idealize.ShloMosaic.Lib.Affine

namespace Cert.RowPick

open Idealize.ShloMosaic

/-- The masked word: `a` times the comparison bit `a ≥ 2` widened to a word. -/
def masked (a : BitVec 32) : BitVec 32 := IntOp.muli a ((IntOp.cmpi .sge a 2#32).setWidth 32)

theorem two_toInt : (2#32 : BitVec 32).toInt = 2 := by decide

/-- At least 2: the word is kept. -/
theorem masked_of_ge (a : BitVec 32) (h : 2 ≤ a.toInt) : masked a = a := by
  have hb : IntOp.cmpi .sge a 2#32 = 1#1 := IntOp.cmpi_sge.2 (by rw [two_toInt]; exact h)
  unfold masked
  rw [hb]
  show a * 1#32 = a
  exact BitVec.mul_one a

/-- Below 2: the word becomes 0. -/
theorem masked_of_lt (a : BitVec 32) (h : a.toInt < 2) : masked a = 0#32 := by
  have hb : IntOp.cmpi .sge a 2#32 = 0#1 := by
    rcases BitVec.eq_zero_or_eq_one (IntOp.cmpi .sge a 2#32) with h0 | h1
    · exact h0
    · have := IntOp.cmpi_sge.1 h1
      rw [two_toInt] at this
      omega
  unfold masked
  rw [hb]
  show a * 0#32 = 0#32
  exact BitVec.mul_zero

/-- A word in `[0, n)` signed is below `n` unsigned. -/
theorem toNat_lt_of_toInt (w : BitVec 32) (n : Nat) (h0 : 0 ≤ w.toInt) (hn : w.toInt < n) : w.toNat < n := by
  have h32 := w.isLt
  unfold BitVec.toInt at h0 hn
  split at hn <;> omega

/-- THE RANGE: an index word below 4096 (signed) masks to a word in `[0, 4096)`. -/
theorem masked_range (a : BitVec 32) (h : a.toInt < 4096) :
    0 ≤ (masked a).toInt ∧ (masked a).toInt < 4096 := by
  by_cases h2 : 2 ≤ a.toInt
  · rw [masked_of_ge a h2]; omega
  · rw [masked_of_lt a (by omega)]
    have : (0#32 : BitVec 32).toInt = 0 := by decide
    rw [this]; omega

theorem masked_toNat_lt (a : BitVec 32) (h : a.toInt < 4096) : (masked a).toNat < 4096 :=
  toNat_lt_of_toInt _ 4096 (masked_range a h).1 (masked_range a h).2

/-- In range, the signed reading clamped to `[0, 4095]` is the unsigned reading. -/
theorem clamp_eq_toNat (w : BitVec 32) (h0 : 0 ≤ w.toInt) (hn : w.toInt < 4096) : min w.toInt.toNat 4095 = w.toNat := by
  have h32 := w.isLt
  unfold BitVec.toInt at h0 hn ⊢
  split at hn <;> omega

end Cert.RowPick
-- ==== Proof.TablesBits.lean ====
/-
  The pipeline's side condition on the two prefetched tables. The tables the region reads are the masked index arrays
  `masked ∘ idx_fwd` and `masked ∘ idx_back` (two host operations before the region compute them). Window 0's block at
  grid point `(b, r)` is `(b, mf[b, r], 0, 0)` of the [16, 4096, 1, 256] table, window 1's `(b, mb[b, r], 0, 0)`: each
  lies inside its table when the masked word is below 4096 unsigned, which holds when every index word is below
  4096 signed (IndexMask.lean).
-/
import proofs.«409633_j79448305042054_2_alg».proof.Proof.Gen.Kernel.Frame
import proofs.«409633_j79448305042054_2_alg».proof.Proof.IndexMask
import Idealize.ShloMosaic.Lib.StableHlo.Run

set_option maxRecDepth 16384

noncomputable section

namespace Cert.Kernel.Tables

open Cert.Kernel Cert.Kernel.Gen Cert.RowPick
open Idealize.ShloMosaic Idealize.ShloMosaic.TcCoe Idealize.SL.Sem Idealize.ShloMosaic.StableHlo

variable {F : FTy → Type} [FloatOps F]
variable (m : (ℓ : Loc nD τ sig) → Buf (Elt F) ℓ)

/-- The forward table the region reads is the masked forward index array. -/
theorem tbl0_eq : tbl m 0 = fun i => masked (m (((0 : Dev nD) : Thread nD τ).loc main_arg2) i) := by
  unfold tbl
  show V m 0 main_v3 = _
  dsimp only [V, V0]
  simp only [hostOps0, List.flatten_cons, List.flatten_nil, List.append_nil]
  after_results
  rfl

/-- The backward table the region reads is the masked backward index array. -/
theorem tbl1_eq : tbl m 1 = fun i => masked (m (((0 : Dev nD) : Thread nD τ).loc main_arg3) i) := by
  unfold tbl
  show V m 0 main_v7 = _
  dsimp only [V, V0]
  simp only [hostOps0, List.flatten_cons, List.flatten_nil, List.append_nil]
  after_results
  rfl

/-- A grid coordinate as a word and back. -/
theorem coord_toNat (n : Nat) (hn : n < 2 ^ 32) : (BitVec.ofNat 32 n).toNat = n := by
  rw [BitVec.toNat_ofNat]; exact Nat.mod_eq_of_lt hn

/-- A block index `(b, w, 0, 0)` with `b < 16` and `w < 4096` names a [1, 1, 1, 256] block inside the table. -/
theorem block_inb (b w : Nat) (hb : b < 16) (hw : w < 4096) :
    ∀ a, ((![b, w, 0, 0] : Fin 4 → Nat) a + 1) * S1x1x1x256.size a ≤ S16x4096x1x256.size a := by
  intro a
  fin_cases a <;> simp [S1x1x1x256, S16x4096x1x256] <;> omega

/-- THE SIDE CONDITION from the index ranges: every table-indexed block lies inside its table. -/
theorem ok_of_lt (h2 : ∀ i, (m (((0 : Dev nD) : Thread nD τ).loc main_arg2) i).toInt < 4096)
    (h3 : ∀ i, (m (((0 : Dev nD) : Thread nD τ).loc main_arg3) i).toInt < 4096) : Ok m := by
  have hl0 : ∀ x, (tbl m 0 x).toNat < 4096 := fun x => by rw [tbl0_eq]; exact masked_toNat_lt _ (h2 x)
  have hl1 : ∀ x, (tbl m 1 x).toNat < 4096 := fun x => by rw [tbl1_eq]; exact masked_toNat_lt _ (h3 x)
  refine ⟨fun i => ?_, fun i => ?_⟩
  · obtain ⟨w, hw, e⟩ : ∃ w : BitVec 32, w.toNat < 4096 ∧
        cc0_transform_0 k0_off1_inb numel1_S1x1 (tbl m) i = ![(BitVec.ofNat 32 (i 0).val).toNat, w.toNat, 0, 0] :=
      ⟨_, hl0 _, rfl⟩
    have hi : (i 0).val < 16 := (i 0).isLt
    have hb : (BitVec.ofNat 32 (i 0).val).toNat < 16 := by
      rw [coord_toNat _ (by omega)]; exact hi
    refine ⟨fun a => ?_, Or.inl rfl⟩
    rw [e]
    exact block_inb _ _ hb hw a
  · obtain ⟨w, hw, e⟩ : ∃ w : BitVec 32, w.toNat < 4096 ∧
        cc0_transform_1 k0_off1_inb numel1_S1x1 (tbl m) i = ![(BitVec.ofNat 32 (i 0).val).toNat, w.toNat, 0, 0] :=
      ⟨_, hl1 _, rfl⟩
    have hi : (i 0).val < 16 := (i 0).isLt
    have hb : (BitVec.ofNat 32 (i 0).val).toNat < 16 := by
      rw [coord_toNat _ (by omega)]; exact hi
    refine ⟨fun a => ?_, Or.inl rfl⟩
    rw [e]
    exact block_inb _ _ hb hw a

end Cert.Kernel.Tables

end
-- ==== Proof.TablesIdeal.lean ====
/-
  The pipeline's side condition on the two prefetched tables. The tables the region reads are the masked index arrays
  `masked ∘ idx_fwd` and `masked ∘ idx_back` (two host operations before the region compute them). Window 0's block at
  grid point `(b, r)` is `(b, mf[b, r], 0, 0)` of the [16, 4096, 1, 256] table, window 1's `(b, mb[b, r], 0, 0)`: each
  lies inside its table when the masked word is below 4096 unsigned, which holds when every index word is below
  4096 signed (IndexMask.lean).
-/
import proofs.«409633_j79448305042054_2_alg».proof.Proof.Gen.KernelIdeal.Frame
import proofs.«409633_j79448305042054_2_alg».proof.Proof.IndexMask
import Idealize.ShloMosaic.Lib.StableHlo.Run

set_option maxRecDepth 16384

noncomputable section

namespace Cert.KernelIdeal.Tables

open Cert.KernelIdeal Cert.KernelIdeal.Gen Cert.RowPick
open Idealize.ShloMosaic Idealize.ShloMosaic.TcCoe Idealize.SL.Sem Idealize.ShloMosaic.StableHlo

variable {F : FTy → Type} [FloatOps F]
variable (m : (ℓ : Loc nD τ sig) → Buf (Elt F) ℓ)

/-- The forward table the region reads is the masked forward index array. -/
theorem tbl0_eq : tbl m 0 = fun i => masked (m (((0 : Dev nD) : Thread nD τ).loc main_arg2) i) := by
  unfold tbl
  show V m 0 main_v3 = _
  dsimp only [V, V0]
  simp only [hostOps0, List.flatten_cons, List.flatten_nil, List.append_nil]
  after_results
  rfl

/-- The backward table the region reads is the masked backward index array. -/
theorem tbl1_eq : tbl m 1 = fun i => masked (m (((0 : Dev nD) : Thread nD τ).loc main_arg3) i) := by
  unfold tbl
  show V m 0 main_v7 = _
  dsimp only [V, V0]
  simp only [hostOps0, List.flatten_cons, List.flatten_nil, List.append_nil]
  after_results
  rfl

/-- A grid coordinate as a word and back. -/
theorem coord_toNat (n : Nat) (hn : n < 2 ^ 32) : (BitVec.ofNat 32 n).toNat = n := by
  rw [BitVec.toNat_ofNat]; exact Nat.mod_eq_of_lt hn

/-- A block index `(b, w, 0, 0)` with `b < 16` and `w < 4096` names a [1, 1, 1, 256] block inside the table. -/
theorem block_inb (b w : Nat) (hb : b < 16) (hw : w < 4096) :
    ∀ a, ((![b, w, 0, 0] : Fin 4 → Nat) a + 1) * S1x1x1x256.size a ≤ S16x4096x1x256.size a := by
  intro a
  fin_cases a <;> simp [S1x1x1x256, S16x4096x1x256] <;> omega

/-- THE SIDE CONDITION from the index ranges: every table-indexed block lies inside its table. -/
theorem ok_of_lt (h2 : ∀ i, (m (((0 : Dev nD) : Thread nD τ).loc main_arg2) i).toInt < 4096)
    (h3 : ∀ i, (m (((0 : Dev nD) : Thread nD τ).loc main_arg3) i).toInt < 4096) : Ok m := by
  have hl0 : ∀ x, (tbl m 0 x).toNat < 4096 := fun x => by rw [tbl0_eq]; exact masked_toNat_lt _ (h2 x)
  have hl1 : ∀ x, (tbl m 1 x).toNat < 4096 := fun x => by rw [tbl1_eq]; exact masked_toNat_lt _ (h3 x)
  refine ⟨fun i => ?_, fun i => ?_⟩
  · obtain ⟨w, hw, e⟩ : ∃ w : BitVec 32, w.toNat < 4096 ∧
        cc0_transform_0 k0_off1_inb numel1_S1x1 (tbl m) i = ![(BitVec.ofNat 32 (i 0).val).toNat, w.toNat, 0, 0] :=
      ⟨_, hl0 _, rfl⟩
    have hi : (i 0).val < 16 := (i 0).isLt
    have hb : (BitVec.ofNat 32 (i 0).val).toNat < 16 := by
      rw [coord_toNat _ (by omega)]; exact hi
    refine ⟨fun a => ?_, Or.inl rfl⟩
    rw [e]
    exact block_inb _ _ hb hw a
  · obtain ⟨w, hw, e⟩ : ∃ w : BitVec 32, w.toNat < 4096 ∧
        cc0_transform_1 k0_off1_inb numel1_S1x1 (tbl m) i = ![(BitVec.ofNat 32 (i 0).val).toNat, w.toNat, 0, 0] :=
      ⟨_, hl1 _, rfl⟩
    have hi : (i 0).val < 16 := (i 0).isLt
    have hb : (BitVec.ofNat 32 (i 0).val).toNat < 16 := by
      rw [coord_toNat _ (by omega)]; exact hi
    refine ⟨fun a => ?_, Or.inl rfl⟩
    rw [e]
    exact block_inb _ _ hb hw a

end Cert.KernelIdeal.Tables

end
-- ==== Proof.BodyIdeal.lean ====
/-
  What the body leaves in the output block at one grid point.

  The body copies the forward row block into lanes `0 … 255` of the [1, 1, 1, 512] output block and the backward row
  block into lanes `256 … 511`: two stores whose rectangles tile the block, each payload the loaded block behind an
  identity shape cast. So the block, read at lane `l`, is the forward block at `l` for `l < 256` and the backward
  block at `l - 256` otherwise.
-/
import proofs.«409633_j79448305042054_2_alg».proof.Proof.Gen.KernelIdeal.Frame
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx

variable {F : FTy → Type} [FloatOps F]

/-- The one index of a [1, 1, 1, n] block with lane `l`. -/
abbrev lane {n : Nat} (l : Fin n) : (⟨4, ![1, 1, 1, n]⟩ : Shape).Idx := ix4 (0 : Fin 1) (0 : Fin 1) (0 : Fin 1) l

/-- Every index of a [1, 1, 1, n] block is its lane's. -/
theorem eq_lane {n : Nat} (x : (⟨4, ![1, 1, 1, n]⟩ : Shape).Idx) : x = lane (x 3) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

theorem lane_lt {n : Nat} (y : (⟨4, ![1, 1, 1, n]⟩ : Shape).Idx) : (y 3).val < n := (y 3).isLt

/-- Two [1, 1, 1, 256] blocks side by side as one [1, 1, 1, 512] block. -/
def side (x0 x1 : Vec F S1x1x1x256 .f32) : Vec F S1x1x1x512 .f32 := fun y =>
  if h : (y 3).val < 256 then x0 (lane ⟨(y 3).val, h⟩)
  else x1 (lane ⟨(y 3).val - 256, by have := lane_lt y; omega⟩)

theorem side_left (x0 x1 : Vec F S1x1x1x256 .f32) (y : S1x1x1x512.Idx) (h : (y 3).val < 256) :
    side x0 x1 y = x0 (lane ⟨(y 3).val, h⟩) := by
  unfold side; rw [dif_pos h]

theorem side_right (x0 x1 : Vec F S1x1x1x256 .f32) (y : S1x1x1x512.Idx) (h : ¬ (y 3).val < 256) :
    side x0 x1 y = x1 (lane ⟨(y 3).val - 256, by have := lane_lt y; omega⟩) := by
  unfold side; rw [dif_neg h]

/-- The two payloads are their loaded blocks: the shape cast is to the same shape. -/
theorem pay1_eq (v : Vec F S1x1x1x256 .f32) : k0_pay1 v = v := by unfold k0_pay1; exact shapeCast_self _ _
theorem pay2_eq (v : Vec F S1x1x1x256 .f32) : k0_pay2 v = v := by unfold k0_pay2; exact shapeCast_self _ _

/-- A load of the whole of a whole [1, 1, 1, 256] staging buffer reads its contents. -/
theorem load_whole (M : Memref sig .tc .vmem S1x1x1x256 .f32) (hM : M.IsWhole) (X : Vec F S1x1x1x256 .f32)
    (inb : ∀ a, (![0, 0, 0, 0] : Fin 4 → Nat) a + S1x1x1x256.size a ≤ S1x1x1x256.size a) (x : S1x1x1x256.Idx) :
    View.readAt (Elt F) M.view (Rect.unit (s := S1x1x1x256) ![0, 0, 0, 0] S1x1x1x256.size inb).toLoadRect (hM.unread X) x
      = X x := by
  rw [View.readAt_eq_ld, Memref.IsWhole.read_unread]
  show X _ = X x
  congr 1
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 0 + 1 * (x 3).val = (x 3).val; omega

/-- THE OUTPUT BLOCK the body leaves: the two input blocks side by side. -/
theorem out_eq (c : Dev nD) (i : grid0.Coords) (arg4 : Memref sig .tc .vmem S1x1x1x256 .f32) (harg4 : arg4.IsWhole)
    (arg5 : Memref sig .tc .vmem S1x1x1x256 .f32) (harg5 : arg5.IsWhole) (arg6 : Memref sig .tc .vmem S1x1x1x512 .f32) (harg6 : arg6.IsWhole)
    (x0 : Vec F S1x1x1x256 .f32) (x1 : Vec F S1x1x1x256 .f32) (xt0 : TbBuf0 (F := F) c tbM0_0) (xt1 : TbBuf0 (F := F) c tbM0_1) :
    out0_A_2 c i arg4 harg4 arg5 harg5 arg6 harg6 x0 x1 xt0 xt1 = side x0 x1 := by
  unfold out0_A_2
  rw [View.read_writes_eq_canon _ _ _ (cover0_A_2 c i arg4 harg4 arg5 harg5 arg6 harg6 x0 x1 xt0 xt1)]
  funext y
  refine View.canon_apply_of_pieces (side x0 x1) _ ?_ y (cover0_A_2 c i arg4 harg4 arg5 harg5 arg6 harg6 x0 x1 xt0 xt1 y)
  unfold kernelRun0_A
  dsimp only
  intro p hp x
  simp only [List.mem_cons, List.mem_nil_iff, or_false] at hp
  rcases hp with rfl | rfl
  · -- the store at lane offset 256: the backward block
    dsimp only
    rw [pay2_eq, load_whole]
    have h3 : ¬ (((Rect.unit (s := S1x1x1x512) ![0, 0, 0, 256] S1x1x1x256.size inb_S1x1x1x512_S1x1x1x256_0_0_0_256).emb x) 3).val < 256 := by
      show ¬ 256 + 1 * (x 3).val < 256
      omega
    rw [side_right _ _ _ h3]
    refine congrArg x1 ((eq_lane x).trans (congrArg lane (Fin.ext ?_)))
    show (x 3).val = 256 + 1 * (x 3).val - 256
    omega
  · -- the store at lane offset 0: the forward block
    dsimp only
    rw [pay1_eq, load_whole]
    have h3 : (((Rect.unit (s := S1x1x1x512) ![0, 0, 0, 0] S1x1x1x256.size inb_S1x1x1x512_S1x1x1x256_0_0_0_0).emb x) 3).val < 256 := by
      show 0 + 1 * (x 3).val < 256
      have := lane_lt x
      omega
    rw [side_left _ _ _ h3]
    refine congrArg x0 ((eq_lane x).trans (congrArg lane (Fin.ext ?_)))
    show (x 3).val = 0 + 1 * (x 3).val
    omega

end Cert.KernelIdeal.Body

end
-- ==== Proof.BlocksIdeal.lean ====
/-
  Which entries of the tables the blocks of one grid point hold.

  Grid point `(b, r)` fetches block `(b, mf[b, r], 0, 0)` of the forward table viewed [16, 4096, 1, 256] and block
  `(b, mb[b, r], 0, 0)` of the backward one (the index maps read the prefetched masked tables at `(b, r)`), and writes
  back block `(b, r, 0, 0)` of the [16, 512, 1, 512] result. The [16, 4096, 1, 256] view of a table is a reshape of the
  [16, 4096, 256] argument: entry `(b, p, 0, d)` is the argument's `(b, p, d)`.
-/
import proofs.«409633_j79448305042054_2_alg».proof.Proof.Gen.KernelIdeal.Frame
import proofs.«409633_j79448305042054_2_alg».proof.Proof.TablesIdeal
import proofs.«409633_j79448305042054_2_alg».proof.Proof.BodyIdeal
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Tables Cert.KernelIdeal.Body Cert.RowPick
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F]
variable (m : (ℓ : Loc nD τ sig) → Buf (Elt F) ℓ)

/-! ## The index maps in closed form -/

/-- The one index of a [1, 1] rectangle has coordinates 0. -/
theorem first_val (h1 : 0 < S1x1.numel) (a : Fin 2) : (Shape.Idx.first h1 a).val = 0 := by
  have := (Shape.Idx.first h1 a).isLt
  have e : S1x1.size a = 1 := by fin_cases a <;> rfl
  omega

/-- A grid point's two coordinates, typed by the literal bounds. -/
abbrev gb (i : grid0.Coords) : Fin 16 := i 0
abbrev gr (i : grid0.Coords) : Fin 512 := i 1

/-- The index an index map's table load reads at grid point `i` is `(i 0, i 1)`. -/
theorem tblIdx_eq (i : grid0.Coords) (inb : ∀ a, (k0_off1 i) a + S1x1.size a ≤ S16x512.size a) (h1 : 0 < S1x1.numel) :
    (Rect.unit (s := S16x512) (k0_off1 i) S1x1.size inb).emb (Shape.Idx.first h1) = ix2 (gb i) (gr i) := by
  have hi0 : (i 0).val < 16 := (i 0).isLt
  have hi1 : (i 1).val < 512 := (i 1).isLt
  funext a
  apply Fin.ext
  match a with
  | ⟨0, _⟩ =>
    show (BitVec.ofNat 32 (i 0).val).toNat + 1 * (Shape.Idx.first h1 (0 : Fin 2)).val = (i 0).val
    rw [first_val, coord_toNat _ (by omega)]; omega
  | ⟨1, _⟩ =>
    show (BitVec.ofNat 32 (i 1).val).toNat + 1 * (Shape.Idx.first h1 (1 : Fin 2)).val = (i 1).val
    rw [first_val, coord_toNat _ (by omega)]; omega

/-- Window 0's block index at grid point `i`: `(i 0, table 0 at (i 0, i 1), 0, 0)`. -/
theorem map0_eq (pf : pre0.Contents (Elt F)) (i : grid0.Coords) :
    cc0_transform_0 (F := F) k0_off1_inb numel1_S1x1 pf i = ![(i 0).val, (pf 0 (ix2 (gb i) (gr i))).toNat, 0, 0] := by
  have hi0 : (i 0).val < 16 := (i 0).isLt
  funext a
  match a with
  | ⟨0, _⟩ => show (BitVec.ofNat 32 (i 0).val).toNat = (i 0).val; exact coord_toNat _ (by omega)
  | ⟨1, _⟩ =>
    exact congrArg (fun z => (pf 0 z).toNat) (tblIdx_eq i (k0_off1_inb i) (numel1_S1x1.symm ▸ Nat.one_pos))
  | ⟨2, _⟩ => rfl
  | ⟨3, _⟩ => rfl

/-- Window 1's block index at grid point `i`: `(i 0, table 1 at (i 0, i 1), 0, 0)`. -/
theorem map1_eq (pf : pre0.Contents (Elt F)) (i : grid0.Coords) :
    cc0_transform_1 (F := F) k0_off1_inb numel1_S1x1 pf i = ![(i 0).val, (pf 1 (ix2 (gb i) (gr i))).toNat, 0, 0] := by
  have hi0 : (i 0).val < 16 := (i 0).isLt
  funext a
  match a with
  | ⟨0, _⟩ => show (BitVec.ofNat 32 (i 0).val).toNat = (i 0).val; exact coord_toNat _ (by omega)
  | ⟨1, _⟩ =>
    exact congrArg (fun z => (pf 1 z).toNat) (tblIdx_eq i (k0_off1_inb i) (numel1_S1x1.symm ▸ Nat.one_pos))
  | ⟨2, _⟩ => rfl
  | ⟨3, _⟩ => rfl

/-- The output window's block index at grid point `i`: `(i 0, i 1, 0, 0)`. -/
theorem map2_eq (i : grid0.Coords) : cc0_transform_2 i = ![(i 0).val, (i 1).val, 0, 0] := by
  have hi0 : (i 0).val < 16 := (i 0).isLt
  have hi1 : (i 1).val < 512 := (i 1).isLt
  funext a
  match a with
  | ⟨0, _⟩ => show (BitVec.ofNat 32 (i 0).val).toNat = (i 0).val; exact coord_toNat _ (by omega)
  | ⟨1, _⟩ => show (BitVec.ofNat 32 (i 1).val).toNat = (i 1).val; exact coord_toNat _ (by omega)
  | ⟨2, _⟩ => rfl
  | ⟨3, _⟩ => rfl

/-! ## The tables as the region finds them -/

/-- A [16, 4096, 256] table viewed [16, 4096, 1, 256]: entry `(b, p, 0, d)` is the table's `(b, p, d)`. -/
theorem view4_apply {α : Type} (x : S16x4096x256.Idx → α) (h : S16x4096x256.ShapeCasts S16x4096x1x256) (K : S16x4096x1x256.Idx) :
    shapeCast S16x4096x1x256 x h K = x (ix3 (K 0) (K 1) (K 3)) := by
  have h2 : (K 2).val = 0 := by have := (K 2).isLt; have e : S16x4096x1x256.size 2 = 1 := rfl; omega
  refine shapeCast_apply x h K _ ?_
  rw [Shape.rowMajor_val_three, Shape.rowMajor_val_four]
  show (((K 0).val * 4096 + (K 1).val) * 256 + (K 3).val) = ((((K 0).val * 4096 + (K 1).val) * 1 + (K 2).val) * 256 + (K 3).val)
  rw [h2]; omega

/-- The forward table as the region finds it: the reshaped argument. -/
theorem V8_apply (c : Dev nD) (K : S16x4096x1x256.Idx) :
    V m c main_v8 K = m ((c : Thread nD τ).loc main_arg0) (ix3 (K 0) (K 1) (K 3)) := by
  have e : (V m c main_v8 : S16x4096x1x256.Idx → Elt F .f32)
      = shapeCast S16x4096x1x256 (m ((c : Thread nD τ).loc main_arg0)) shapeCasts_S16x4096x256_S16x4096x1x256 := by
    dsimp only [V, V0]
    simp only [hostOps0, List.flatten_cons, List.flatten_nil, List.append_nil]
    after_results
    rfl
  rw [e, view4_apply]

/-- The backward table as the region finds it: the reshaped argument. -/
theorem V9_apply (c : Dev nD) (K : S16x4096x1x256.Idx) :
    V m c main_v9 K = m ((c : Thread nD τ).loc main_arg1) (ix3 (K 0) (K 1) (K 3)) := by
  have e : (V m c main_v9 : S16x4096x1x256.Idx → Elt F .f32)
      = shapeCast S16x4096x1x256 (m ((c : Thread nD τ).loc main_arg1)) shapeCasts_S16x4096x256_S16x4096x1x256 := by
    dsimp only [V, V0]
    simp only [hostOps0, List.flatten_cons, List.flatten_nil, List.append_nil]
    after_results
    rfl
  rw [e, view4_apply]

end Cert.KernelIdeal.Blocks

end
-- ==== Proof.Picked.lean ====
/-
  THE RESULT both programs compute, as one function of the argument arrays.

  With `mf = masked ∘ idx_fwd` and `mb = masked ∘ idx_back` (IndexMask.lean), the [16, 512, 512] result holds, at
  `(b, r, d)`, the forward table's entry `x_fwd[b, mf[b, r], d]` for `d < 256` and the backward table's entry
  `x_bwd[b, mb[b, r], d - 256]` for `d ≥ 256`: one row of each table per (batch, word), laid side by side.
  The row a word names is read as the gather reads it (signed, clamped into `[0, 4095]`); on an in-range word that
  is the word's unsigned value.
-/
import Idealize.ShloMosaic.PureOps
import Idealize.ShloMosaic.Lib.ValueIdx
import proofs.«409633_j79448305042054_2_alg».proof.Proof.IndexMask

namespace Cert.RowPick

open Idealize.ShloMosaic Idealize.ShloMosaic.ValueIdx

abbrev Tbl3 : Shape := ⟨3, ![16, 4096, 256]⟩
abbrev Words : Shape := ⟨2, ![16, 512]⟩
abbrev Out3 : Shape := ⟨3, ![16, 512, 512]⟩

/-- The row of a 4096-row table a word names: its signed value clamped into `[0, 4095]`. -/
def rowOf (w : BitVec 32) : Fin 4096 := ⟨min w.toInt.toNat 4095, by omega⟩

/-- On a word in `[0, 4096)` the clamp does nothing: the row is the word's unsigned value. -/
theorem rowOf_val (w : BitVec 32) (h0 : 0 ≤ w.toInt) (hn : w.toInt < 4096) : (rowOf w).val = w.toNat :=
  clamp_eq_toNat w h0 hn

/-- The last coordinate of a rank-3 index is below the last extent. -/
theorem idx3_lt2 {n0 n1 n2 : Nat} (j : (⟨3, ![n0, n1, n2]⟩ : Shape).Idx) : (j 2).val < n2 := (j 2).isLt

/-- THE RESULT: row `masked idx_fwd[b, r]` of the forward table in columns `0 … 255`, row `masked idx_back[b, r]` of the
    backward table in columns `256 … 511`. -/
def picked {α : Type} (x0 x1 : Tbl3.Idx → α) (i0 i1 : IVec Words 32) : Out3.Idx → α := fun j =>
  if h : (j 2).val < 256 then x0 (ix3 (j 0) (rowOf (masked (i0 (ix2 (j 0) (j 1))))) ⟨(j 2).val, h⟩)
  else x1 (ix3 (j 0) (rowOf (masked (i1 (ix2 (j 0) (j 1))))) ⟨(j 2).val - 256, by have := idx3_lt2 j; omega⟩)

theorem picked_left {α : Type} (x0 x1 : Tbl3.Idx → α) (i0 i1 : IVec Words 32) (b : Fin 16) (r : Fin 512) (d : Fin 512)
    (h : d.val < 256) :
    picked x0 x1 i0 i1 (ix3 b r d) = x0 (ix3 b (rowOf (masked (i0 (ix2 b r)))) ⟨d.val, h⟩) := by
  unfold picked
  rw [dif_pos (show ((ix3 b r d : Out3.Idx) 2).val < 256 from h)]

theorem picked_right {α : Type} (x0 x1 : Tbl3.Idx → α) (i0 i1 : IVec Words 32) (b : Fin 16) (r : Fin 512) (d : Fin 512)
    (h : ¬ d.val < 256) :
    picked x0 x1 i0 i1 (ix3 b r d) = x1 (ix3 b (rowOf (masked (i1 (ix2 b r)))) ⟨d.val - 256, by omega⟩) := by
  unfold picked
  rw [dif_neg (show ¬ ((ix3 b r d : Out3.Idx) 2).val < 256 from h)]

end Cert.RowPick
-- ==== Proof.ResultIdeal.lean ====
/-
  The kernel's result array is `picked`.

  At grid point `(b, r)` the body leaves the forward block and the backward block side by side (BodyIdeal.lean);
  the forward block is row `mf[b, r]` of batch `b` of the forward table, the backward block row `mb[b, r]` of the
  backward one (BlocksIdeal.lean), and under the precondition the masked words are the rows `picked` names
  (IndexMask.lean). The point writes the block back at `(b, r, 0, ·)` of the [16, 512, 1, 512] result; the points' blocks
  cover that array, and the last host operation drops its unit axis.
-/
import proofs.«409633_j79448305042054_2_alg».proof.Proof.BlocksIdeal
import proofs.«409633_j79448305042054_2_alg».proof.Proof.Picked

set_option maxRecDepth 16384

noncomputable section

namespace Cert.KernelIdeal.Result

open Cert.KernelIdeal Cert.KernelIdeal.Gen Cert.KernelIdeal.Tables Cert.KernelIdeal.Body Cert.KernelIdeal.Blocks Cert.RowPick
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- `picked` of device `c`'s argument arrays. -/
abbrev pickedOf (c : Dev nD) : S16x512x512.Idx → Elt F .f32 :=
  picked (m ((c : Thread nD τ).loc main_arg0)) (m ((c : Thread nD τ).loc main_arg1))
    (m ((c : Thread nD τ).loc main_arg2)) (m ((c : Thread nD τ).loc main_arg3))

/-- The region's [16, 512, 1, 512] output: `picked` with a unit axis before the last. -/
def picked4 (c : Dev nD) : S16x512x1x512.Idx → Elt F .f32 := fun k => pickedOf m c (ix3 (k 0) (k 1) (k 3))

/-! ## The input blocks at a point -/

theorem lane0 (x : S1x1x1x256.Idx) : (x 0).val = 0 ∧ (x 1).val = 0 ∧ (x 2).val = 0 := by
  have h0 : (x 0).val < 1 := (x 0).isLt
  have h1 : (x 1).val < 1 := (x 1).isLt
  have h2 : (x 2).val < 1 := (x 2).isLt
  omega

/-- The forward block at point `t`, at lane `x 3`: the forward table as the region finds it, at batch `b`, row the
    forward table word of `(b, r)`, lane `x 3`. -/
theorem iblk0_at (hO : Ok m) (c : Dev nD) (t : Fin (cfgM m hO).N) (x : S1x1x1x256.Idx) (K : S16x4096x1x256.Idx)
    (e0 : (K 0).val = (grid0.coords t 0).val)
    (e1 : (K 1).val = (tbl m 0 (ix2 (gb (grid0.coords t)) (gr (grid0.coords t)))).toNat)
    (e3 : (K 3).val = (x 3).val) :
    (iblk m hO c 0 t : Vec F S1x1x1x256 .f32) x = V m c main_v8 K := by
  show V m c main_v8 ((((cfgM m hO).win 0).blk t).view.emb x) = V m c main_v8 K
  congr 1
  funext a
  apply Fin.ext
  have hmap := map0_eq (tbl m) (grid0.coords t)
  have h2 : (K 2).val = 0 := by have := (K 2).isLt; have e : S16x4096x1x256.size 2 = 1 := rfl; omega
  match a with
  | ⟨0, _⟩ =>
    show cc0_transform_0 (F := F) k0_off1_inb numel1_S1x1 (tbl m) (grid0.coords t) 0 * 1 + 1 * (x 0).val = (K 0).val
    rw [hmap, e0]
    obtain ⟨z0, z1, z2⟩ := lane0 x
    show (grid0.coords t 0).val * 1 + 1 * (x 0).val = _
    omega
  | ⟨1, _⟩ =>
    show cc0_transform_0 (F := F) k0_off1_inb numel1_S1x1 (tbl m) (grid0.coords t) 1 * 1 + 1 * (x 1).val = (K 1).val
    rw [hmap, e1]
    obtain ⟨z0, z1, z2⟩ := lane0 x
    show (tbl m 0 (ix2 (gb (grid0.coords t)) (gr (grid0.coords t)))).toNat * 1 + 1 * (x 1).val = _
    omega
  | ⟨2, _⟩ =>
    show cc0_transform_0 (F := F) k0_off1_inb numel1_S1x1 (tbl m) (grid0.coords t) 2 * 1 + 1 * (x 2).val = (K 2).val
    rw [hmap, h2]
    obtain ⟨z0, z1, z2⟩ := lane0 x
    show 0 * 1 + 1 * (x 2).val = _
    omega
  | ⟨3, _⟩ =>
    show cc0_transform_0 (F := F) k0_off1_inb numel1_S1x1 (tbl m) (grid0.coords t) 3 * 256 + 1 * (x 3).val = (K 3).val
    rw [hmap, e3]
    show 0 * 256 + 1 * (x 3).val = _
    omega

/-- The backward block at point `t`, likewise. -/
theorem iblk1_at (hO : Ok m) (c : Dev nD) (t : Fin (cfgM m hO).N) (x : S1x1x1x256.Idx) (K : S16x4096x1x256.Idx)
    (e0 : (K 0).val = (grid0.coords t 0).val)
    (e1 : (K 1).val = (tbl m 1 (ix2 (gb (grid0.coords t)) (gr (grid0.coords t)))).toNat)
    (e3 : (K 3).val = (x 3).val) :
    (iblk m hO c 1 t : Vec F S1x1x1x256 .f32) x = V m c main_v9 K := by
  show V m c main_v9 ((((cfgM m hO).win 1).blk t).view.emb x) = V m c main_v9 K
  congr 1
  funext a
  apply Fin.ext
  have hmap := map1_eq (tbl m) (grid0.coords t)
  have h2 : (K 2).val = 0 := by have := (K 2).isLt; have e : S16x4096x1x256.size 2 = 1 := rfl; omega
  match a with
  | ⟨0, _⟩ =>
    show cc0_transform_1 (F := F) k0_off1_inb numel1_S1x1 (tbl m) (grid0.coords t) 0 * 1 + 1 * (x 0).val = (K 0).val
    rw [hmap, e0]
    obtain ⟨z0, z1, z2⟩ := lane0 x
    show (grid0.coords t 0).val * 1 + 1 * (x 0).val = _
    omega
  | ⟨1, _⟩ =>
    show cc0_transform_1 (F := F) k0_off1_inb numel1_S1x1 (tbl m) (grid0.coords t) 1 * 1 + 1 * (x 1).val = (K 1).val
    rw [hmap, e1]
    obtain ⟨z0, z1, z2⟩ := lane0 x
    show (tbl m 1 (ix2 (gb (grid0.coords t)) (gr (grid0.coords t)))).toNat * 1 + 1 * (x 1).val = _
    omega
  | ⟨2, _⟩ =>
    show cc0_transform_1 (F := F) k0_off1_inb numel1_S1x1 (tbl m) (grid0.coords t) 2 * 1 + 1 * (x 2).val = (K 2).val
    rw [hmap, h2]
    obtain ⟨z0, z1, z2⟩ := lane0 x
    show 0 * 1 + 1 * (x 2).val = _
    omega
  | ⟨3, _⟩ =>
    show cc0_transform_1 (F := F) k0_off1_inb numel1_S1x1 (tbl m) (grid0.coords t) 3 * 256 + 1 * (x 3).val = (K 3).val
    rw [hmap, e3]
    show 0 * 256 + 1 * (x 3).val = _
    omega

/-! ## What a point writes back -/

/-- AT ONE POINT: the two blocks side by side, at lane `y 3`, are `picked4` at `(b, r, 0, y 3)` — when every index word is
    below 4096. -/
theorem point_eq (hO : Ok m) (c : Dev nD) (t : Fin (cfgM m hO).N)
    (h2 : ∀ i, (m ((c : Thread nD τ).loc main_arg2) i).toInt < 4096)
    (h3 : ∀ i, (m ((c : Thread nD τ).loc main_arg3) i).toInt < 4096)
    (y : S1x1x1x512.Idx) (k : S16x512x1x512.Idx)
    (e0 : (k 0).val = (grid0.coords t 0).val) (e1 : (k 1).val = (grid0.coords t 1).val) (e3 : (k 3).val = (y 3).val) :
    side (iblk m hO c 0 t) (iblk m hO c 1 t) y = picked4 m c k := by
  obtain rfl : c = 0 := Subsingleton.elim _ _
  have hbr : ix2 (gb (grid0.coords t)) (gr (grid0.coords t)) = (ix2 (k 0) (k 1) : S16x512.Idx) := by
    funext a
    apply Fin.ext
    match a with
    | ⟨0, _⟩ => exact e0.symm
    | ⟨1, _⟩ => exact e1.symm
  have hy : (y 3).val < 512 := lane_lt y
  unfold picked4 pickedOf
  by_cases hd : (y 3).val < 256
  · have hd' : (k 3).val < 256 := by omega
    refine (side_left (iblk m hO 0 0 t) (iblk m hO 0 1 t) y hd).trans ?_
    refine Eq.trans ?_ (picked_left _ _ _ _ (k 0) (k 1) (k 3) hd').symm
    have hr := masked_range _ (h2 (ix2 (k 0) (k 1)))
    have hlt : (tbl m 0 (ix2 (gb (grid0.coords t)) (gr (grid0.coords t)))).toNat < 4096 := by
      rw [tbl0_eq, hbr]; exact masked_toNat_lt _ (h2 _)
    refine (iblk0_at m hO 0 t _ (ix4 (k 0) ⟨_, hlt⟩ (0 : Fin 1) (⟨(y 3).val, hd⟩ : Fin 256)) e0 rfl rfl).trans ?_
    refine (V8_apply m 0 _).trans ?_
    refine congrArg (m (((0 : Dev nD) : Thread nD τ).loc main_arg0)) ?_
    funext a
    apply Fin.ext
    match a with
    | ⟨0, _⟩ => rfl
    | ⟨1, _⟩ =>
      show (tbl m 0 (ix2 (gb (grid0.coords t)) (gr (grid0.coords t)))).toNat = (rowOf (masked _)).val
      rw [tbl0_eq, hbr, rowOf_val _ hr.1 hr.2]
    | ⟨2, _⟩ => exact e3.symm
  · have hd' : ¬ (k 3).val < 256 := by omega
    refine (side_right (iblk m hO 0 0 t) (iblk m hO 0 1 t) y hd).trans ?_
    refine Eq.trans ?_ (picked_right _ _ _ _ (k 0) (k 1) (k 3) hd').symm
    have hr := masked_range _ (h3 (ix2 (k 0) (k 1)))
    have hlt : (tbl m 1 (ix2 (gb (grid0.coords t)) (gr (grid0.coords t)))).toNat < 4096 := by
      rw [tbl1_eq, hbr]; exact masked_toNat_lt _ (h3 _)
    refine (iblk1_at m hO 0 t _ (ix4 (k 0) ⟨_, hlt⟩ (0 : Fin 1) (⟨(y 3).val - 256, by omega⟩ : Fin 256)) e0 rfl rfl).trans ?_
    refine (V9_apply m 0 _).trans ?_
    refine congrArg (m (((0 : Dev nD) : Thread nD τ).loc main_arg1)) ?_
    funext a
    apply Fin.ext
    match a with
    | ⟨0, _⟩ => rfl
    | ⟨1, _⟩ =>
      show (tbl m 1 (ix2 (gb (grid0.coords t)) (gr (grid0.coords t)))).toNat = (rowOf (masked _)).val
      rw [tbl1_eq, hbr, rowOf_val _ hr.1 hr.2]
    | ⟨2, _⟩ => show (y 3).val - 256 = (k 3).val - 256; omega

/-- WHAT POINT `t` WRITES BACK is block `t` of `picked4`. -/
theorem flushed_eq (hO : Ok m) (c : Dev nD)
    (h2 : ∀ i, (m ((c : Thread nD τ).loc main_arg2) i).toInt < 4096)
    (h3 : ∀ i, (m ((c : Thread nD τ).loc main_arg3) i).toInt < 4096)
    (t : Fin (cfgM m hO).N) :
    (dats m hO 0 c).flushed 2 t = (((cfgM m hO).win 2).blk t).view.read (Elt F) (picked4 m c) := by
  show ((cfgM m hO).win 2).cut (grid0.coords t) ((dats m hO 0 c).after 2 t) = _
  rw [after0_2]
  have ho : outsAt0 m hO c t = side (iblk m hO c 0 t) (iblk m hO c 1 t) := by
    unfold outsAt0
    exact out_eq c _ _ _ _ _ _ _ _ _ _ _
  refine funext fun (j : S1x1x1x512.Idx) => ?_
  show outsAt0 m hO c t j = picked4 m c ((((cfgM m hO).win 2).blk t).view.emb j)
  refine (congrFun ho j).trans ?_
  have hmap := map2_eq (grid0.coords t)
  refine point_eq m hO c t h2 h3 j _ ?_ ?_ ?_
  · have q0 : cc0_transform_2 (grid0.coords t) 0 = (grid0.coords t 0).val := congrFun hmap 0
    have : (j 0).val < 1 := (j 0).isLt
    show cc0_transform_2 (grid0.coords t) 0 * 1 + 1 * (j 0).val = (grid0.coords t 0).val
    omega
  · have q1 : cc0_transform_2 (grid0.coords t) 1 = (grid0.coords t 1).val := congrFun hmap 1
    have : (j 1).val < 1 := (j 1).isLt
    show cc0_transform_2 (grid0.coords t) 1 * 1 + 1 * (j 1).val = (grid0.coords t 1).val
    omega
  · have q3 : cc0_transform_2 (grid0.coords t) 3 = 0 := congrFun hmap 3
    show cc0_transform_2 (grid0.coords t) 3 * 512 + 1 * (j 3).val = (j 3).val
    omega

/-! ## The array after the run -/

theorem stride0 : grid0.stride 0 = 512 := by decide
theorem stride1 : grid0.stride 1 = 1 := by decide

/-- Every index of the output lies in the block of the point `(i 0, i 1)`. -/
theorem cover (hO : Ok m) (i : S16x512x1x512.Idx) :
    ∃ t : Fin (cfgM m hO).N, ((cfgM m hO).win 2).flush t = true ∧ i ∈ (((cfgM m hO).win 2).blk t).view.set := by
  have hi0 : (i 0).val < 16 := (i 0).isLt
  have hi1 : (i 1).val < 512 := (i 1).isLt
  have hi2 : (i 2).val < 1 := (i 2).isLt
  have hi3 : (i 3).val < 512 := (i 3).isLt
  have hN : (cfgM m hO).N = 8192 := N_0
  let t : Fin (cfgM m hO).N := ⟨(i 0).val * 512 + (i 1).val, by rw [hN]; omega⟩
  have c0 : (grid0.coords t 0).val = (i 0).val := by
    show ((i 0).val * 512 + (i 1).val) / grid0.stride 0 % 16 = (i 0).val
    rw [stride0]; omega
  have c1 : (grid0.coords t 1).val = (i 1).val := by
    show ((i 0).val * 512 + (i 1).val) / grid0.stride 1 % 512 = (i 1).val
    rw [stride1]; omega
  refine ⟨t, flush0_2 (adm m hO) t, ?_⟩
  have e : (((cfgM m hO).win 2).blk t).view.set = (((cfgM m hO).win 2).rect t).set :=
    View.set_slice_whole main_v10 _
  refine (Finset.ext_iff.mp e i).mpr (Rect.mem_set_unit.mpr fun a => ?_)
  have hmap := map2_eq (grid0.coords t)
  have q0 : cc0_transform_2 (grid0.coords t) 0 = (grid0.coords t 0).val := congrFun hmap 0
  have q1 : cc0_transform_2 (grid0.coords t) 1 = (grid0.coords t 1).val := congrFun hmap 1
  have q2 : cc0_transform_2 (grid0.coords t) 2 = 0 := congrFun hmap 2
  have q3 : cc0_transform_2 (grid0.coords t) 3 = 0 := congrFun hmap 3
  match a with
  | ⟨0, _⟩ => show cc0_transform_2 (grid0.coords t) 0 * 1 ≤ (i 0).val ∧ (i 0).val < cc0_transform_2 (grid0.coords t) 0 * 1 + 1; omega
  | ⟨1, _⟩ => show cc0_transform_2 (grid0.coords t) 1 * 1 ≤ (i 1).val ∧ (i 1).val < cc0_transform_2 (grid0.coords t) 1 * 1 + 1; omega
  | ⟨2, _⟩ => show cc0_transform_2 (grid0.coords t) 2 * 1 ≤ (i 2).val ∧ (i 2).val < cc0_transform_2 (grid0.coords t) 2 * 1 + 1; omega
  | ⟨3, _⟩ => show cc0_transform_2 (grid0.coords t) 3 * 512 ≤ (i 3).val ∧ (i 3).val < cc0_transform_2 (grid0.coords t) 3 * 512 + 512; omega

/-- THE REGION'S OUTPUT after the run is `picked4`. -/
theorem final (hO : Ok m) (c : Dev nD)
    (h2 : ∀ i, (m ((c : Thread nD τ).loc main_arg2) i).toInt < 4096)
    (h3 : ∀ i, (m ((c : Thread nD τ).loc main_arg3) i).toInt < 4096) :
    (dats m hO 0 c).arrAt 2 (cfgM m hO).N = picked4 m c :=
  (dats m hO 0 c).arrAt_eq_of_cover 2 (picked4 m c) (fun t _ => flushed_eq m hO c h2 h3 t) (cover m hO)

/-- Dropping the unit axis: the [16, 512, 1, 512] array viewed [16, 512, 512]. -/
theorem view3_apply {α : Type} (x : S16x512x1x512.Idx → α) (h : S16x512x1x512.ShapeCasts S16x512x512) (j : S16x512x512.Idx) :
    shapeCast S16x512x512 x h j = x (ix4 (j 0) (j 1) (0 : Fin 1) (j 2)) := by
  refine shapeCast_apply x h j _ ?_
  rw [Shape.rowMajor_val_three, Shape.rowMajor_val_four]
  show ((((j 0).val * 512 + (j 1).val) * 1 + 0) * 512 + (j 2).val) = (((j 0).val * 512 + (j 1).val) * 512 + (j 2).val)
  omega

/-- THE RESULT: what the last host operation leaves in `main_v11` is `picked` of the argument arrays. -/
theorem tail_eq (hO : Ok m) (c : Dev nD)
    (h2 : ∀ i, (m ((c : Thread nD τ).loc main_arg2) i).toInt < 4096)
    (h3 : ∀ i, (m ((c : Thread nD τ).loc main_arg3) i).toInt < 4096) :
    (Pipeline.afterTail pcfgs (fun _ => adm m hO) (dats m hO) 0 (V0 m) [hostOps1] c main_v11 : S16x512x512.Idx → Elt F .f32)
      = pickedOf m c := by
  unfold Pipeline.afterTail
  show StableHlo.after hostOps1 _ (Proc.devRef .tc main_v11) = _
  after_results
  rw [Pipeline.withArrays_arr spec0 winFacts0.arr_inj c _ _ 2]
  rw [final m hO c h2 h3]
  funext j
  show shapeCast S16x512x512 (picked4 m c) shapeCasts_S16x512x1x512_S16x512x512 j = _
  rw [view3_apply]
  unfold picked4
  exact congrArg (pickedOf m c) (eq_ix3 j).symm

/-- THE KERNEL'S RUN with its result named. -/
theorem run (hO : Ok m)
    (h2 : ∀ c : Dev nD, ∀ i, (m ((c : Thread nD τ).loc main_arg2) i).toInt < 4096)
    (h3 : ∀ c : Dev nD, ∀ i, (m ((c : Thread nD τ).loc main_arg3) i).toInt < 4096) :
    θ_run defs (onTc (τ := τ) (main (F := F))) ⟨m, fun _ => 0, ρ⟩ fun r => ∀ c : Dev nD,
      r.2.mem ((c : Thread nD τ).loc main_v11) = pickedOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ?_) (run_main m ρ hO)
  refine ⟨((h c).2 main_v11 (by decide : main_v11 ∈ Pipeline.restRefs sig spec0)).trans (tail_eq m hO c (h2 c) (h3 c)),
    ((h c).2 main_arg0 (by decide : main_arg0 ∈ Pipeline.restRefs sig spec0)).trans (W_main_arg0 m hO (dats m hO) c),
    ((h c).2 main_arg1 (by decide : main_arg1 ∈ Pipeline.restRefs sig spec0)).trans (W_main_arg1 m hO (dats m hO) c),
    ((h c).2 main_arg2 (by decide : main_arg2 ∈ Pipeline.restRefs sig spec0)).trans (W_main_arg2 m hO (dats m hO) c),
    ((h c).2 main_arg3 (by decide : main_arg3 ∈ Pipeline.restRefs sig spec0)).trans (W_main_arg3 m hO (dats m hO) c)⟩

end Cert.KernelIdeal.Result

end
-- ==== Proof.TakeAlongRows.lean ====
/-
  Picking one row per (batch, word) out of a [16, 4096, 256] table.

  `jnp.take_along_axis(x, m[:, :, None], axis=1)` ends in a batched `stablehlo.gather` of the [16, 4096, 256] table at a
  [16, 512, 1] column of start indices: batch axis 0 of table and column paired, the start index on table axis 1, the
  whole of axis 2 kept. Read at `(b, r, d)` it is `x[b, m[b, r, 0], d]`, the start index read signed and clamped into
  `[0, 4095]`.
-/
import Idealize.ShloMosaic.PureOps
import Idealize.ShloMosaic.Lib.ValueIdx

namespace Cert.RowPick

open Idealize.ShloMosaic Idealize.ShloMosaic.ValueIdx

abbrev Tbl : Shape := ⟨3, ![16, 4096, 256]⟩
abbrev Col : Shape := ⟨3, ![16, 512, 1]⟩
abbrev Rows : Shape := ⟨3, ![16, 512, 256]⟩

/-- The batched gather's dimension numbers: batch axis 0 of table and indices paired, the start index on table axis 1
    (collapsed), the whole of axis 2 as the offset axis. -/
abbrev rowDims (wf : GatherDims.WF Tbl Col Rows [2] [1] [0] [1] [0] 2 ![1, 1, 256]) : GatherDims Tbl Col Rows where
  offsetDims := [2]
  collapsedSliceDims := [1]
  operandBatchingDims := [0]
  startIndicesBatchingDims := [0]
  startIndexMap := [1]
  indexVectorDim := 2
  sliceSizes := ![1, 1, 256]
  wf := wf

/-- THE GATHER READ AT `(b, r, d)`: the table at batch `b`, at the row the start index `idx[b, r, 0]` names (read signed,
    clamped into `[0, 4095]`), at column `d`. -/
theorem gather_rows_apply {α : Type} {w : Nat} (wf : GatherDims.WF Tbl Col Rows [2] [1] [0] [1] [0] 2 ![1, 1, 256])
    (x : Tbl.Idx → α) (idx : IVec Col w) (b : Fin 16) (r : Fin 512) (d : Fin 256) :
    Host.gather (rowDims wf) x idx (ix3 b r d)
      = x (ix3 b ⟨min (idx (ix3 b r (0 : Fin 1))).toInt.toNat 4095, by omega⟩ d) := by
  unfold Host.gather
  congr 1
  funext a
  refine Fin.ext ?_
  match a with
  | ⟨0, _⟩ =>
    show (rowDims wf).start (ix3 b r d) idx 0 + (rowDims wf).batchCoord (ix3 b r d) 0
      + (rowDims wf).offCoord (ix3 b r d) 0 = b.val
    have hmem : (0 : Fin 3) ∈ (rowDims wf).operandBatchingDims := List.mem_singleton.mpr rfl
    rw [GatherDims.start_batching _ _ _ _ hmem,
      GatherDims.offCoord_eq_zero _ _ _ (fun h => ((GatherDims.mem_sKept _ _).mp h).2 hmem)]
    unfold GatherDims.batchCoord
    rw [dif_pos hmem]
    simp only [Nat.zero_add, Nat.add_zero]
    rfl
  | ⟨1, _⟩ =>
    show (rowDims wf).start (ix3 b r d) idx 1 + (rowDims wf).batchCoord (ix3 b r d) 1
      + (rowDims wf).offCoord (ix3 b r d) 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims wf).startIndexMap from List.mem_singleton.mpr rfl)]
    have hsi : (rowDims wf).siIdx (ix3 b r d) ⟨List.idxOf (1 : Fin 3) (rowDims wf).startIndexMap,
        List.idxOf_lt_length_iff.2 (List.mem_singleton.mpr rfl)⟩ = ix3 b r (0 : Fin 1) := by
      funext k; refine Fin.ext ?_
      match k with
      | ⟨0, _⟩ => rfl
      | ⟨1, _⟩ => rfl
      | ⟨2, _⟩ => rfl
    rw [hsi]
    rfl
  | ⟨2, _⟩ =>
    show (rowDims wf).start (ix3 b r d) idx 2 + (rowDims wf).batchCoord (ix3 b r d) 2
      + (rowDims wf).offCoord (ix3 b r d) 2 = d.val
    have hk : (2 : Fin 3) ∈ (rowDims wf).sKept :=
      (GatherDims.mem_sKept _ _).mpr ⟨fun h => absurd (List.mem_singleton.mp h) (by decide),
        fun h => absurd (List.mem_singleton.mp h) (by decide)⟩
    rw [GatherDims.batchCoord_eq_zero _ _ _ (fun h => absurd (List.mem_singleton.mp h) (by decide))]
    unfold GatherDims.start
    rw [dif_neg (fun h => absurd (List.mem_singleton.mp h) (by decide))]
    unfold GatherDims.offCoord
    rw [dif_pos hk]
    simp only [Nat.add_zero, Nat.zero_add]
    rfl

end Cert.RowPick
-- ==== Proof.LibTakeFill.lean ====
/-
  A fill-mode take is the bare gather on in-range indices.

  `jnp.take(x, idx, axis=0)` in its default mode computes: the index wrapped once (`idx + N` where `idx` is negative,
  else `idx`), a mask `0 ≤ w ≤ N - 1` of the wrapped index `w`, reduced by `and` over its unit axis and laid along the
  row, the gather at the wrapped index, and a select between the gathered row and a fill value. When every index lies
  in `[-N, N)`, read signed, the wrapped index lies in `[0, N)`, so the mask is all ones and the select returns the
  gathered row: the fill value is never read. Nothing here depends on what the gather itself reads.
-/
import Idealize.ShloMosaic.PureOps
import Idealize.ShloMosaic.PureOps.Reduce
import Idealize.ShloMosaic.Lib.Affine
import Idealize.ShloMosaic.Lib.StableHlo.Predicate

namespace Idealize.ShloMosaic.TakeFill

/-- An index wrapped once: `a + N` where `a` is negative, else `a`. -/
def wrap (N : Nat) (a : BitVec 32) : BitVec 32 :=
  Scalar.select (IntOp.cmpi .slt a 0#32) (IntOp.addi a (BitVec.ofNat 32 N)) a

/-- A word in `[-N, N)`, read signed, wraps into `[0, N)`: a negative one gains `N` without overflow. -/
theorem wrap_range (N : Nat) (hN : N < 2 ^ 31) (a : BitVec 32) (h1 : -(N : Int) ≤ a.toInt) (h2 : a.toInt < N) :
    0 ≤ (wrap N a).toInt ∧ (wrap N a).toInt < N := by
  have hNi : (BitVec.ofNat 32 N).toInt = N := StableHlo.Predicate.toInt_ofNat_small N hN
  have h0 : (0#32 : BitVec 32).toInt = 0 := by decide
  unfold wrap Scalar.select
  split
  · rename_i h
    have hneg : a.toInt < 0 := by
      have := IntOp.cmpi_slt.1 h
      rwa [h0] at this
    have hb : (a.toInt + (N : Int)).bmod (2 ^ 32) = a.toInt + N := Int.bmod_eq_of_le (by omega) (by omega)
    rw [IntOp.addi, BitVec.toInt_add, hNi, hb]
    omega
  · rename_i h
    have hnn : ¬ a.toInt < 0 := fun hh => h (IntOp.cmpi_slt.2 (by rw [h0]; exact hh))
    omega

/-- A left fold by `and` from 1 over words that are all 1 is 1. -/
theorem foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    have e : IntOp.andi (1#1) (1#1) = 1#1 := by decide
    rw [List.foldl_cons, hf a (List.mem_cons.2 (Or.inl rfl)), e]
    exact ih fun n hn => hf n (List.mem_cons.2 (Or.inr hn))

/-- A reduce by `and` from 1 of a mask that is 1 everywhere is 1 everywhere. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun n _ => hx n

/-- THE TAKE. With every index in `[-N, N)`, the select of a fill-mode take over the row mask returns the gathered
    row: each wrapped index is in `[0, N)`, so each mask word is 1 and so is their reduction. -/
theorem take_fill_eq_gather {α : Type} {S0 sI sI1 s1 s11 sO sX : Shape} {axes : List (Fin sI1.rank)}
    (N M : Nat) (hN : N < 2 ^ 31) (hNM : M + 1 = N)
    {d1 : Fin S0.rank → Fin sI.rank} (b1 : S0.BroadcastsInDim sI d1)
    {d2 : Fin sI.rank → Fin sI1.rank} (b2 : sI.BroadcastsInDim sI1 d2)
    {d3 : Fin S0.rank → Fin sI1.rank} (b3 : S0.BroadcastsInDim sI1 d3)
    {d4 : Fin s1.rank → Fin s11.rank} (b4 : s1.BroadcastsInDim s11 d4)
    {d5 : Fin s11.rank → Fin sI1.rank} (b5 : s11.BroadcastsInDim sI1 d5)
    {d6 : Fin sI.rank → Fin sO.rank} (b6 : sI.BroadcastsInDim sO d6)
    (hr : sI1.ReducesTo axes sI) (h0 : 0 < S0.numel)
    (g : GatherDims sX sI1 sO) (x : sX.Idx → α) (fill : sO.Idx → α) (idx : IVec sI 32)
    (hidx : ∀ i, -(N : Int) ≤ (idx i).toInt ∧ (idx i).toInt < N) :
    let w : IVec sI1 32 := broadcastInDim sI1 d2 b2 (select (cmpi .slt idx (broadcastInDim sI d1 b1 (constantI S0 32 0#32)))
        (addi idx (broadcastInDim sI d1 b1 (constantI S0 32 (BitVec.ofNat 32 N)))) idx)
    select (broadcastInDim sO d6 b6 (Host.reduce IntOp.andi
        (andi (cmpi .sge w (broadcastInDim sI1 d3 b3 (constantI S0 32 0#32)))
              (cmpi .sle w (broadcastInDim sI1 d5 b5 (broadcastInDim s11 d4 b4 (constantI s1 32 (BitVec.ofNat 32 M))))))
        (constantI S0 1 1#1) hr h0)) (Host.gather g x w) fill
      = Host.gather g x w := by
  intro w
  have hw : ∀ k, ∃ i, w k = wrap N (idx i) := fun k => ⟨_, rfl⟩
  funext j
  show Scalar.select _ _ _ = _
  unfold Scalar.select
  rw [if_pos]
  show Host.reduce IntOp.andi _ _ hr h0 _ = 1#1
  refine reduce_andi_of_all _ _ hr h0 (fun _ => rfl) (fun k => ?_) _
  obtain ⟨i, hi⟩ := hw k
  show IntOp.andi (IntOp.cmpi .sge (w k) 0#32) (IntOp.cmpi .sle (w k) (BitVec.ofNat 32 M)) = 1#1
  rw [hi, IntOp.andi_eq_one, IntOp.cmpi_sge, IntOp.cmpi_sle]
  obtain ⟨h1, h2⟩ := wrap_range N hN (idx i) (hidx i).1 (hidx i).2
  have hM : (BitVec.ofNat 32 M).toInt = M := StableHlo.Predicate.toInt_ofNat_small M (by omega)
  have h0' : (0#32 : BitVec 32).toInt = 0 := by decide
  rw [hM, h0']
  omega

end Idealize.ShloMosaic.TakeFill
-- ==== Proof.LibTakeAlongFill.lean ====
/-
  A fill-mode take along an axis is the bare gather on in-range, non-negative indices.

  `jnp.take_along_axis(x, idx, axis)` in its default mode computes, on an index array `idx` already of the operand's
  rank: the index wrapped once (`idx + N` where `idx` is negative, else `idx`), a mask `0 ≤ w ≤ N - 1` of the wrapped
  index `w`, reduced by `and` over the index array's unit axis and laid along the gathered axis, the batched gather at
  the wrapped index, and a select between the gathered value and a fill value. (`jnp.take` differs in where the index
  array is broadcast: there the select is taken before the broadcast; here the wrapped index is computed at the
  broadcast shape itself.) When every index lies in `[0, N)`, read signed, nothing is wrapped, the mask is all ones,
  and the select returns the gather at the index array itself: the fill value is never read. Nothing here depends on
  what the gather itself reads. Builds on the take lemmas beside it (LibTakeFill.lean: `TakeFill.wrap`,
  `TakeFill.reduce_andi_of_all`), which a unit reusing this file needs too.
-/
import Idealize.ShloMosaic.PureOps
import Idealize.ShloMosaic.PureOps.Reduce
import Idealize.ShloMosaic.Lib.Affine
import Idealize.ShloMosaic.Lib.StableHlo.Predicate
import proofs.«409633_j79448305042054_2_alg».proof.Proof.LibTakeFill

namespace Idealize.ShloMosaic.TakeAlongFill

open Idealize.ShloMosaic

/-- A non-negative word is not wrapped. -/
theorem wrap_of_nonneg (N : Nat) (a : BitVec 32) (h : 0 ≤ a.toInt) : TakeFill.wrap N a = a := by
  unfold TakeFill.wrap Scalar.select
  rw [if_neg]
  intro hh
  have := IntOp.cmpi_slt.1 hh
  have h0 : (0#32 : BitVec 32).toInt = 0 := by decide
  rw [h0] at this
  omega

/-- THE TAKE ALONG AN AXIS. With every index in `[0, N)`, the select over the row mask returns the bare gather at the
    index itself: nothing is wrapped, every mask word is 1 and so is their reduction, and the fill is never read. -/
theorem take_along_eq_gather {α : Type} {S0 sI sR s1 s11 sO sX : Shape} {axes : List (Fin sI.rank)}
    (N M : Nat) (hN : N < 2 ^ 31) (hNM : M + 1 = N)
    {d1 : Fin S0.rank → Fin sI.rank} (b1 : S0.BroadcastsInDim sI d1)
    {d4 : Fin s1.rank → Fin s11.rank} (b4 : s1.BroadcastsInDim s11 d4)
    {d5 : Fin s11.rank → Fin sI.rank} (b5 : s11.BroadcastsInDim sI d5)
    {d6 : Fin sR.rank → Fin sO.rank} (b6 : sR.BroadcastsInDim sO d6)
    (hr : sI.ReducesTo axes sR) (h0 : 0 < S0.numel)
    (g : GatherDims sX sI sO) (x : sX.Idx → α) (fill : sO.Idx → α) (idx : IVec sI 32)
    (hidx : ∀ i, 0 ≤ (idx i).toInt ∧ (idx i).toInt < N) :
    select (broadcastInDim sO d6 b6 (Host.reduce IntOp.andi
        (andi (cmpi .sge (select (cmpi .slt idx (broadcastInDim sI d1 b1 (constantI S0 32 0#32)))
                  (addi idx (broadcastInDim sI d1 b1 (constantI S0 32 (BitVec.ofNat 32 N)))) idx)
                (broadcastInDim sI d1 b1 (constantI S0 32 0#32)))
              (cmpi .sle (select (cmpi .slt idx (broadcastInDim sI d1 b1 (constantI S0 32 0#32)))
                  (addi idx (broadcastInDim sI d1 b1 (constantI S0 32 (BitVec.ofNat 32 N)))) idx)
                (broadcastInDim sI d5 b5 (broadcastInDim s11 d4 b4 (constantI s1 32 (BitVec.ofNat 32 M))))))
        (constantI S0 1 1#1) hr h0))
      (Host.gather g x (select (cmpi .slt idx (broadcastInDim sI d1 b1 (constantI S0 32 0#32)))
                  (addi idx (broadcastInDim sI d1 b1 (constantI S0 32 (BitVec.ofNat 32 N)))) idx)) fill
      = Host.gather g x idx := by
  have hw : (select (cmpi .slt idx (broadcastInDim sI d1 b1 (constantI S0 32 0#32)))
      (addi idx (broadcastInDim sI d1 b1 (constantI S0 32 (BitVec.ofNat 32 N)))) idx : IVec sI 32) = idx := by
    funext k
    exact wrap_of_nonneg N (idx k) (hidx k).1
  rw [hw]
  funext j
  show Scalar.select _ _ _ = _
  unfold Scalar.select
  rw [if_pos]
  show Host.reduce IntOp.andi _ _ hr h0 _ = 1#1
  refine TakeFill.reduce_andi_of_all _ _ hr h0 (fun _ => rfl) (fun k => ?_) _
  show IntOp.andi (IntOp.cmpi .sge (idx k) 0#32) (IntOp.cmpi .sle (idx k) (BitVec.ofNat 32 M)) = 1#1
  rw [IntOp.andi_eq_one, IntOp.cmpi_sge, IntOp.cmpi_sle]
  have hM : (BitVec.ofNat 32 M).toInt = M := StableHlo.Predicate.toInt_ofNat_small M (by omega)
  have h0' : (0#32 : BitVec 32).toInt = 0 := by decide
  rw [hM, h0']
  have := hidx k
  omega

end Idealize.ShloMosaic.TakeAlongFill
-- ==== Proof.RefValue.lean ====
/-
  The reference's result is `picked`.

  The reference masks the two index arrays, takes one row of each table per (batch, word) with
  `jnp.take_along_axis` (LibTakeAlongFill.lean: under the precondition each take is the bare gather at the masked
  index; TakeAlongRows.lean: that gather read at `(b, r, d)` is `x[b, masked idx[b, r], d]`), and concatenates the two [16, 512, 256] results along the last
  axis: columns `0 … 255` read the first, columns `256 … 511` the second at the column less 256.

  The run is read in three pieces: what the last operation (the concatenate) leaves in terms of the two takes'
  buffers, and each take's buffer as a function of the argument arrays.
-/
import proofs.«409633_j79448305042054_2_alg».proof.Proof.RefRunP
import proofs.«409633_j79448305042054_2_alg».proof.Proof.Picked
import proofs.«409633_j79448305042054_2_alg».proof.Proof.TakeAlongRows
import proofs.«409633_j79448305042054_2_alg».proof.Proof.LibTakeAlongFill
import proofs.«409633_j79448305042054_2_alg».proof.Proof.IndexMask
import Idealize.ShloMosaic.Lib.Pipeline.Value

set_option maxRecDepth 16384

noncomputable section

namespace Cert.RowPick.Ref

open Cert.ReferenceIdeal Cert.ReferenceIdeal.Gen Cert.ReferenceIdeal.RunP Cert.RowPick
open Idealize.ShloMosaic Idealize.ShloMosaic.TcCoe Idealize.SL.Sem Idealize.ShloMosaic.ValueIdx Idealize.ShloMosaic.StableHlo

variable {F : FTy → Type} [FloatOps F]

/-! ## One take, as a term -/

/-- The masked index array laid as a [16, 512, 1] column. -/
def maskedCol (idx : IVec S16x512 32) : IVec S16x512x1 32 :=
  broadcastInDim S16x512x1 ![0, 1] bcast_S16x512_S16x512x1_0_1
    (muli idx (extui 32 (cmpi .sge idx (broadcastInDim S16x512 ![] bcast_S_S16x512 (constantI S_ 32 2#32))) natLt_1_32))

/-- The column wrapped once: `w + 4096` where `w` is negative. -/
def wrapCol (col : IVec S16x512x1 32) : IVec S16x512x1 32 :=
  select (cmpi .slt col (broadcastInDim S16x512x1 ![] bcast_S_S16x512x1 (constantI S_ 32 0#32)))
    (addi col (broadcastInDim S16x512x1 ![] bcast_S_S16x512x1 (constantI S_ 32 4096#32))) col

/-- `take_along_axis` of a table at a column of row indices: the gather at the wrapped column where the wrapped index
    is in `[0, 4095]`, a fill value elsewhere. -/
def takeRows {α : Type} (x : S16x4096x256.Idx → α) (fill : S16x512x256.Idx → α) (col : IVec S16x512x1 32) : S16x512x256.Idx → α :=
  select (broadcastInDim S16x512x256 ![0, 1] bcast_S16x512_S16x512x256_0_1 (Host.reduce IntOp.andi
      (andi (cmpi .sge (wrapCol col) (broadcastInDim S16x512x1 ![] bcast_S_S16x512x1 (constantI S_ 32 0#32)))
            (cmpi .sle (wrapCol col) (broadcastInDim S16x512x1 ![0, 1, 2] bcast_S1x1x1_S16x512x1_0_1_2
              (broadcastInDim S1x1x1 ![2] bcast_S1_S1x1x1_2 (constantI S1 32 4095#32)))))
      (constantI S_ 1 1#1) reducesTo_S16x512x1_S16x512_d2 h_S_))
    (Host.gather gather_S16x4096x256_S16x512x1_S16x512x256_2_1_0_0_1_2_11256 x (wrapCol col)) fill

/-- The index array laid as a [16, 512, 1] column reads, at `(b, r, 0)`, the array at `(b, r)`. -/
theorem column_apply {α : Type} (h : S16x512.BroadcastsInDim S16x512x1 (![0, 1] : Fin 2 → Fin S16x512x1.rank))
    (v : S16x512.Idx → α) (b : Fin 16) (r : Fin 512) (z : Fin 1) :
    broadcastInDim S16x512x1 ![0, 1] h v (ix3 b r z) = v (ix2 b r) := by
  unfold broadcastInDim
  congr 1
  funext a
  match a with
  | ⟨0, _⟩ => exact dif_neg (by decide : ¬ (16 : Nat) = 1)
  | ⟨1, _⟩ => exact dif_neg (by decide : ¬ (512 : Nat) = 1)

/-- The masked column at `(b, r, 0)` is the masked word of `idx[b, r]`. -/
theorem maskedCol_apply (idx : IVec S16x512 32) (b : Fin 16) (r : Fin 512) (z : Fin 1) :
    maskedCol idx (ix3 b r z) = masked (idx (ix2 b r)) := by
  unfold maskedCol
  rw [column_apply]
  rfl

/-- ONE TAKE, read at `(b, r, d)`: the table's row `masked idx[b, r]`, column `d` — when every index word is below 4096. -/
theorem takeRows_apply {α : Type} (x : S16x4096x256.Idx → α) (fill : S16x512x256.Idx → α) (idx : IVec S16x512 32)
    (hidx : ∀ i, (idx i).toInt < 4096) (b : Fin 16) (r : Fin 512) (d : Fin 256) :
    takeRows x fill (maskedCol idx) (ix3 b r d) = x (ix3 b (rowOf (masked (idx (ix2 b r)))) d) := by
  have hcol : ∀ i : S16x512x1.Idx, 0 ≤ (maskedCol idx i).toInt ∧ (maskedCol idx i).toInt < (4096 : Nat) := by
    intro i
    obtain ⟨b', r', z', rfl⟩ : ∃ (b' : Fin 16) (r' : Fin 512) (z' : Fin 1), i = ix3 b' r' z' := ⟨i 0, i 1, i 2, eq_ix3 i⟩
    rw [maskedCol_apply]
    exact masked_range _ (hidx _)
  unfold takeRows wrapCol
  refine (congrFun (TakeAlongFill.take_along_eq_gather 4096 4095 (by decide) rfl bcast_S_S16x512x1 bcast_S1_S1x1x1_2 bcast_S1x1x1_S16x512x1_0_1_2
    bcast_S16x512_S16x512x256_0_1 reducesTo_S16x512x1_S16x512_d2 h_S_
    gather_S16x4096x256_S16x512x1_S16x512x256_2_1_0_0_1_2_11256 x fill (maskedCol idx) hcol) (ix3 b r d)).trans ?_
  refine (gather_rows_apply gather_S16x4096x256_S16x512x1_S16x512x256_2_1_0_0_1_2_11256_wf x _ b r d).trans ?_
  refine congrArg x ?_
  funext a
  apply Fin.ext
  match a with
  | ⟨0, _⟩ => rfl
  | ⟨1, _⟩ =>
    show min (maskedCol idx (ix3 b r (0 : Fin 1))).toInt.toNat 4095 = min (masked (idx (ix2 b r))).toInt.toNat 4095
    rw [maskedCol_apply]
  | ⟨2, _⟩ => rfl

/-! ## The run, read -/

variable (m : (ℓ : Loc nD τ sig) → Buf (Elt F) ℓ)

/-- The fill value of both takes. -/
abbrev fillRows : S16x512x256.Idx → Elt F .f32 :=
  broadcastInDim S16x512x256 ![] bcast_S_S16x512x256 (constant S_ .f32 0x7FC00000#32)

/-- The last operation: the result buffer is the concatenation of the two takes' buffers. -/
theorem cat_eq (c : Dev nD) :
    after (ops (F := F)) (launchContents m c) (Proc.devRef .tc main_v12)
      = concatenate S16x512x512 2 [⟨S16x512x256, after (ops (F := F)) (launchContents m c) (Proc.devRef .tc main_v9)⟩,
          ⟨S16x512x256, after (ops (F := F)) (launchContents m c) (Proc.devRef .tc main_v11)⟩]
          concatenates_S16x512x256_S16x512x256_S16x512x512_d2 := by
  simp only [after_cons, after_nil]
  rw [binary_result]
  rw [binary_result_ne]; rotate_left; decide
  rw [binary_result_ne]; rotate_left; decide

/-- The first take's buffer: rows of the forward table at the masked forward indices. -/
theorem take0_eq (c : Dev nD) :
    after (ops (F := F)) (launchContents m c) (Proc.devRef .tc main_v9)
      = takeRows (m ((c.tc : Thread nD τ).loc main_arg0)) fillRows (maskedCol (m ((c.tc : Thread nD τ).loc main_arg2))) := by
  after_results_simp
  simp only [TRef.ofBuf, TRef.toBuf, cast_eq]
  rfl

/-- The second take's buffer: rows of the backward table at the masked backward indices. -/
theorem take1_eq (c : Dev nD) :
    after (ops (F := F)) (launchContents m c) (Proc.devRef .tc main_v11)
      = takeRows (m ((c.tc : Thread nD τ).loc main_arg1)) fillRows (maskedCol (m ((c.tc : Thread nD τ).loc main_arg3))) := by
  after_results_simp
  simp only [TRef.ofBuf, TRef.toBuf, cast_eq]
  rfl

/-- THE REFERENCE'S RESULT is `picked` of the argument arrays, when every index word is below 4096. -/
theorem result_eq (c : Dev nD)
    (h2 : ∀ i, (m ((c.tc : Thread nD τ).loc main_arg2) i).toInt < 4096)
    (h3 : ∀ i, (m ((c.tc : Thread nD τ).loc main_arg3) i).toInt < 4096) :
    (after (ops (F := F)) (launchContents m c) (Proc.devRef .tc main_v12) : S16x512x512.Idx → Elt F .f32)
      = picked (m ((c.tc : Thread nD τ).loc main_arg0)) (m ((c.tc : Thread nD τ).loc main_arg1))
          (m ((c.tc : Thread nD τ).loc main_arg2)) (m ((c.tc : Thread nD τ).loc main_arg3)) := by
  rw [cat_eq, take0_eq, take1_eq]
  funext j
  obtain ⟨b, r, d, rfl⟩ : ∃ (b : Fin 16) (r : Fin 512) (d : Fin 512), j = ix3 b r d := ⟨j 0, j 1, j 2, eq_ix3 j⟩
  by_cases hd : d.val < 256
  · rw [picked_left _ _ _ _ b r d hd]
    refine (concatenate_pair_apply_left (t := S16x512x512) (s₁ := S16x512x256) (s₂ := S16x512x256) (2 : Fin 3) _ _ _ (ix3 b r d) rfl (ix3 b r (⟨d.val, hd⟩ : Fin 256) : S16x512x256.Idx) ?_).trans ?_
    · intro a
      match a with
      | ⟨0, _⟩ => rfl
      | ⟨1, _⟩ => rfl
      | ⟨2, _⟩ => rfl
    · exact takeRows_apply _ _ _ h2 b r ⟨d.val, hd⟩
  · rw [picked_right _ _ _ _ b r d hd]
    refine (concatenate_pair_apply_right (t := S16x512x512) (s₁ := S16x512x256) (s₂ := S16x512x256) (2 : Fin 3) _ _ _ (ix3 b r d) rfl rfl
      (ix3 b r (⟨d.val - 256, by have := d.isLt; omega⟩ : Fin 256) : S16x512x256.Idx) ?_ ?_).trans ?_
    · intro a ha
      match a with
      | ⟨0, _⟩ => rfl
      | ⟨1, _⟩ => rfl
      | ⟨2, _⟩ => exact absurd rfl ha
    · show d.val - 256 + 256 = d.val
      omega
    · exact takeRows_apply _ _ _ h3 b r ⟨d.val - 256, by have := d.isLt; omega⟩

/-- THE REFERENCE'S RUN: every weakly fair execution terminates with the result at `picked` of the argument arrays, the
    arguments unchanged — when every index word is below 4096. -/
theorem run (ρ : Dev nD → PrngReg)
    (h2 : ∀ c : Dev nD, ∀ i, (m ((c.tc : Thread nD τ).loc main_arg2) i).toInt < 4096)
    (h3 : ∀ c : Dev nD, ∀ i, (m ((c.tc : Thread nD τ).loc main_arg3) i).toInt < 4096) :
    θ_run defs (onTc (τ := τ) (main (F := F))) ⟨m, fun _ => 0, ρ⟩ fun r => ∀ c : Dev nD,
      r.2.mem ((c.tc : Thread nD τ).loc main_v12)
          = picked (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v12).trans (result_eq m c (h2 c) (h3 c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

/-- The reference's frame: its run with the result dropped — no precondition on the indices is needed for it, since a
    take is defined at every index. -/
theorem frame (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.RowPick.Ref

end
-- ==== Proof.lean ====
/-
  The certificate of a bidirectional word-extraction kernel against its jnp reference.

  Both programs replace each index word `a` by `a · [a ≥ 2]` (Proof/IndexMask.lean) and then, per (batch, word), pick row
  `mf[b, r]` of the forward table and row `mb[b, r]` of the backward table and lay them side by side: the result at
  `(b, r, d)` is `x_fwd[b, mf[b, r], d]` for `d < 256` and `x_bwd[b, mb[b, r], d - 256]` otherwise (`picked`,
  Proof/Picked.lean). The kernel does it with a pipelined region whose index maps read the masked tables
  (Proof/BlocksIdeal.lean, Proof/BodyIdeal.lean, Proof/ResultIdeal.lean); the reference with two `take_along_axis` and a
  concatenate (Proof/TakeAlongRows.lean, Proof/RefValue.lean). No float arithmetic is done, so the finiteness of the
  float inputs is never used; what is used is that every index word is below 4096 (Proof/PreDecode.lean): a masked
  word then names a row of its table, which is what the region's side condition on its prefetched tables asks
  (Proof/TablesIdeal.lean, Proof/TablesBits.lean), and the reference's takes then read no fill value.
-/
import proofs.«409633_j79448305042054_2_alg».proof.Defs
import proofs.«409633_j79448305042054_2_alg».proof.Proof.Gen.Kernel
import proofs.«409633_j79448305042054_2_alg».proof.Proof.Gen.Kernel.Frame
import proofs.«409633_j79448305042054_2_alg».proof.Proof.Gen.KernelIdeal
import proofs.«409633_j79448305042054_2_alg».proof.Proof.Gen.KernelIdeal.Frame
import proofs.«409633_j79448305042054_2_alg».proof.Proof.Gen.ReferenceIdeal
import proofs.«409633_j79448305042054_2_alg».proof.Proof.Gen.Pre_finite_inputs
import proofs.«409633_j79448305042054_2_alg».proof.Proof.PreDecode
import proofs.«409633_j79448305042054_2_alg».proof.Proof.TablesBits
import proofs.«409633_j79448305042054_2_alg».proof.Proof.ResultIdeal
import proofs.«409633_j79448305042054_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel's frame: the generated frame, its side condition on the tables from the index range. -/
theorem frame_k : Cert.frame_Kernel := fun m ρ h =>
  Cert.Kernel.Gen.frame m ρ
    (Cert.Kernel.Tables.ok_of_lt m (Cert.RowPick.idx_lt_of_pre _ _ _ _ (h 0)).1 (Cert.RowPick.idx_lt_of_pre _ _ _ _ (h 0)).2)

/-- The idealized kernel's frame, likewise. -/
theorem frame_ki : Cert.frame_KernelIdeal := fun m ρ h =>
  Cert.KernelIdeal.Gen.frame m ρ
    (Cert.KernelIdeal.Tables.ok_of_lt m (Cert.RowPick.idx_lt_of_pre _ _ _ _ (h 0)).1 (Cert.RowPick.idx_lt_of_pre _ _ _ _ (h 0)).2)

/-- The reference's frame: its run with the result dropped. -/
theorem frame_ri : Cert.frame_ReferenceIdeal := fun m ρ _ => Cert.RowPick.Ref.frame (F := Ideal) m ρ

/-- The ideal pass rewrote nothing: the idealized kernel is the kernel's own text read at the ideal instance. -/
theorem preserves : Cert.preserves_Kernel_KernelIdeal := trivial

/-- From memories agreeing on the arguments both programs end with `picked` of the arguments. -/
theorem algebraic : Cert.algebraic_KernelIdeal_ReferenceIdeal := by
  intro m ρ m' ρ' hpre hagree
  have hlt := fun c => Cert.RowPick.idx_lt_of_pre _ _ _ _ (hpre c)
  have hO : Cert.KernelIdeal.Gen.Ok m := Cert.KernelIdeal.Tables.ok_of_lt m (hlt 0).1 (hlt 0).2
  refine ⟨fun c => Cert.KernelIdeal.Result.pickedOf m c,
    Cert.KernelIdeal.Result.run m ρ hO (fun c => (hlt c).1) (fun c => (hlt c).2), ?_⟩
  have h2' : ∀ c : Dev Cert.ReferenceIdeal.nD, ∀ i,
      (m' ((c.tc : Thread Cert.ReferenceIdeal.nD Cert.ReferenceIdeal.τ).loc Cert.ReferenceIdeal.main_arg2) i).toInt < 4096 :=
    fun c i => by rw [(hagree c).2.2.1]; exact (hlt c).1 i
  have h3' : ∀ c : Dev Cert.ReferenceIdeal.nD, ∀ i,
      (m' ((c.tc : Thread Cert.ReferenceIdeal.nD Cert.ReferenceIdeal.τ).loc Cert.ReferenceIdeal.main_arg3) i).toInt < 4096 :=
    fun c i => by rw [(hagree c).2.2.2]; exact (hlt c).2 i
  refine (θ_run Cert.ReferenceIdeal.defs _ _).mono (fun _ h c => ⟨(h c).1.trans ?_, (h c).2⟩)
    (Cert.RowPick.Ref.run (F := Ideal) m' ρ' h2' h3')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
